-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x4096 : Shape := ⟨2, ![64, 4096]⟩
abbrev S1 : Shape := ⟨1, ![1]⟩
abbrev S64x1 : Shape := ⟨2, ![64, 1]⟩
abbrev S64x64 : Shape := ⟨2, ![64, 64]⟩
abbrev S64 : Shape := ⟨1, ![64]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x64 .f32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S64x4096x64 .f32) (main_arg1 : FVec F S64x4096 .f32) (main_arg2 : FVec F S64x4096 .f32) (main_arg3 : FVec F S1 .f32) (main_arg4 : IVec S64x1 32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_arg13 main_arg14 main_v13 main_v16
-- ==== Kernel.lean ====
abbrev S64x4096x64 : Shape := ⟨3, ![64, 4096, 64]⟩
abbrev S64x4096 : Shape := ⟨2, ![64, 4096]⟩
abbrev S1 : Shape := ⟨1, ![1]⟩
abbrev S64x1 : Shape := ⟨2, ![64, 1]⟩
abbrev S64x64 : Shape := ⟨2, ![64, 64]⟩
abbrev S64 : Shape := ⟨1, ![64]⟩
abbrev S64x4096x1 : Shape := ⟨3, ![64, 4096, 1]⟩
abbrev S64x4094x65 : Shape := ⟨3, ![64, 4094, 65]⟩
abbrev S1x4096x64 : Shape := ⟨3, ![1, 4096, 64]⟩
abbrev S1x4096x1 : Shape := ⟨3, ![1, 4096, 1]⟩
abbrev S1x4094x65 : Shape := ⟨3, ![1, 4094, 65]⟩
abbrev S4096x64 : Shape := ⟨2, ![4096, 64]⟩
abbrev S4096x1 : Shape := ⟨2, ![4096, 1]⟩
abbrev S1x64 : Shape := ⟨2, ![1, 64]⟩
abbrev S4095x64 : Shape := ⟨2, ![4095, 64]⟩
abbrev S4094x64 : Shape := ⟨2, ![4094, 64]⟩
abbrev S4094x1 : Shape := ⟨2, ![4094, 1]⟩
abbrev S1x4094x64 : Shape := ⟨3, ![1, 4094, 64]⟩
abbrev S1x4094x1 : Shape := ⟨3, ![1, 4094, 1]⟩

abbrev nBuf : Space → Nat
  | .hbm => 17
  | .vmem => 16
  | .smem => 0
  | _ => 0

abbrev bufTy : (tb : Table) → Fin (tcTables nBuf tb) → BufTy
  | .hbm, ⟨0, _⟩ => ⟨S64x4096x64, .f32⟩
  | .hbm, ⟨1, _⟩ => ⟨S64x4096, .f32⟩
  | .hbm, ⟨2, _⟩ => ⟨S64x4096, .f32⟩
  | .hbm, ⟨3, _⟩ => ⟨S1, .f32⟩
  | .hbm, ⟨4, _⟩ => ⟨S64x1, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x4096x1, .f32⟩
  | .hbm, ⟨16, _⟩ => ⟨S64x4094x65, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x1, .f32⟩
  | .local _ .vmem, ⟨3, _⟩ => ⟨S1x4096x1, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S64x64, .f32⟩
  | .local _ .vmem, ⟨12, _⟩ => ⟨S64x64, .f32⟩
  | .local _ .vmem, ⟨13, _⟩ => ⟨S64, .f32⟩
  | .local _ .vmem, ⟨14, _⟩ => ⟨S1x4094x65, .f32⟩
  | .local _ .vmem, ⟨15, _⟩ => ⟨S1x4094x65, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4094x65 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S64x4096_S64x4096x1 : S64x4096.ShapeCasts S64x4096x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  slices_S4096x64_o0_0_S4095x64 : S4096x64.Slices ![0, 0] S4095x64
  concatenates_S1x64_S4095x64_S4096x64_d0 : Shape.Concatenates [S1x64, S4095x64] S4096x64 0
  slices_S4096x64_o1_0_S4095x64 : S4096x64.Slices ![1, 0] S4095x64
  broadcasts_S1x64_S4095x64 : S1x64.Broadcasts S4095x64
  slices_S4095x64_o0_0_S4094x64 : S4095x64.Slices ![0, 0] S4094x64
  concatenates_S1x64_S4094x64_S4095x64_d0 : Shape.Concatenates [S1x64, S4094x64] S4095x64 0
  slices_S4095x64_o1_0_S4094x64 : S4095x64.Slices ![1, 0] S4094x64
  slices_S4096x1_o2_0_S4094x1 : S4096x1.Slices ![2, 0] S4094x1
  slices_S4096x1_o0_0_S4094x1 : S4096x1.Slices ![0, 0] S4094x1
  inb_S1x4094x65_S1x4094x64_0_0_0 : ∀ a, (![0, 0, 0] : Fin 3 → Nat) a + S1x4094x64.size a ≤ S1x4094x65.size a
  h_S1x4094x64 : 0 < S1x4094x64.numel
  shapeCasts_S1x4094x64_S4094x64 : S1x4094x64.ShapeCasts S4094x64
  shapeCasts_S4094x64_S1x4094x64 : S4094x64.ShapeCasts S1x4094x64
  inb_S1x4094x65_S1x4094x1_0_0_64 : ∀ a, (![0, 0, 64] : Fin 3 → Nat) a + S1x4094x1.size a ≤ S1x4094x65.size a
  h_S1x4094x1 : 0 < S1x4094x1.numel
  shapeCasts_S1x4094x1_S4094x1 : S1x4094x1.ShapeCasts S4094x1
  shapeCasts_S4094x1_S1x4094x1 : S4094x1.ShapeCasts S1x4094x1
  dot_S4096x64_S64x64_S4096x64_1_0_0_1_n_n_wf : DotDims.WF S4096x64 S64x64 S4096x64 [1] [0] [0] [1] [] []
  dot_S4095x64_S64x64_S4095x64_1_0_0_1_n_n_wf : DotDims.WF S4095x64 S64x64 S4095x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x4096x64.size a
  hwx0_0 : ∀ i : grid0.Coords, EltTy.bits .f32 = 32 ∨ (Rect.block (s := S64x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S64x4096x1.size a
  hwx0_1 : ∀ i : grid0.Coords, EltTy.bits .f32 = 32 ∨ (Rect.block (s := S64x4096x1) S1x4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x4094x65.size a ≤ S64x4094x65.size a
  hwx0_12 : ∀ i : grid0.Coords, EltTy.bits .f32 = 32 ∨ (Rect.block (s := S64x4094x65) S1x4094x65.size (cc0_transform_12 i) (hinb0_12 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4095x64_S64x64_S4095x64_1_0_0_1_n_n : DotDims S4095x64 S64x64 S4095x64 where
  lhsContracting := [1]
  rhsContracting := [0]
  lhsNonContracting := [0]
  rhsNonContracting := [1]
  lhsBatch := []
  rhsBatch := []
  wf := dot_S4095x64_S64x64_S4095x64_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x4094x65.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x4096x64 : Shape := ⟨3, ![64, 4096, 64]⟩
abbrev S64x4096 : Shape := ⟨2, ![64, 4096]⟩
abbrev S1 : Shape := ⟨1, ![1]⟩
abbrev S64x1 : Shape := ⟨2, ![64, 1]⟩
abbrev S64x64 : Shape := ⟨2, ![64, 64]⟩
abbrev S64 : Shape := ⟨1, ![64]⟩
abbrev S_ : Shape := ⟨0, ![]⟩
abbrev S1x1x64 : Shape := ⟨3, ![1, 1, 64]⟩
abbrev S64x1x64 : Shape := ⟨3, ![64, 1, 64]⟩
abbrev S64x4095x64 : Shape := ⟨3, ![64, 4095, 64]⟩
abbrev S64x4094x64 : Shape := ⟨3, ![64, 4094, 64]⟩
abbrev S64x4094 : Shape := ⟨2, ![64, 4094]⟩
abbrev S64x4094x1 : Shape := ⟨3, ![64, 4094, 1]⟩
abbrev S64x4094x65 : Shape := ⟨3, ![64, 4094, 65]⟩

abbrev nBuf : Space → Nat
  | .hbm => 83
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x4096, .f32⟩
  | .hbm, ⟨2, _⟩ => ⟨S64x4096, .f32⟩
  | .hbm, ⟨3, _⟩ => ⟨S1, .f32⟩
  | .hbm, ⟨4, _⟩ => ⟨S64x1, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S64x4096, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S_, .f32⟩
  | .hbm, ⟨22, _⟩ => ⟨S64x4096, .f32⟩
  | .hbm, ⟨23, _⟩ => ⟨S64x4096, .f32⟩
  | .hbm, ⟨24, _⟩ => ⟨S64x4096x64, .f32⟩
  | .hbm, ⟨25, _⟩ => ⟨S1x1x64, .f32⟩
  | .hbm, ⟨26, _⟩ => ⟨S64x4096x64, .f32⟩
  | .hbm, ⟨27, _⟩ => ⟨S64x4096x64, .f32⟩
  | .hbm, ⟨28, _⟩ => ⟨S_, .f32⟩
  | .hbm, ⟨29, _⟩ => ⟨S64x4096x64, .f32⟩
  | .hbm, ⟨30, _⟩ => ⟨S64x4096x64, .f32⟩
  | .hbm, ⟨31, _⟩ => ⟨S64x1x64, .f32⟩
  | .hbm, ⟨32, _⟩ => ⟨S_, .f32⟩
  | .hbm, ⟨33, _⟩ => ⟨S64x1x64, .f32⟩
  | .hbm, ⟨34, _⟩ => ⟨S64x4095x64, .f32⟩
  | .hbm, ⟨35, _⟩ => ⟨S64x4096x64, .f32⟩
  | .hbm, ⟨36, _⟩ => ⟨S64x4096x64, .f32⟩
  | .hbm, ⟨37, _⟩ => ⟨S64x4096x64, .f32⟩
  | .hbm, ⟨38, _⟩ => ⟨S64x4096x64, .f32⟩
  | .hbm, ⟨39, _⟩ => ⟨S1x1x64, .f32⟩
  | .hbm, ⟨40, _⟩ => ⟨S64x4096x64, .f32⟩
  | .hbm, ⟨41, _⟩ => ⟨S64x4096x64, .f32⟩
  | .hbm, ⟨42, _⟩ => ⟨S64x4095x64, .f32⟩
  | .hbm, ⟨43, _⟩ => ⟨S64x4095x64, .f32⟩
  | .hbm, ⟨44, _⟩ => ⟨S64x4095x64, .f32⟩
  | .hbm, ⟨45, _⟩ => ⟨S64x4095x64, .f32⟩
  | .hbm, ⟨46, _⟩ => ⟨S1x1x64, .f32⟩
  | .hbm, ⟨47, _⟩ => ⟨S64x4095x64, .f32⟩
  | .hbm, ⟨48, _⟩ => ⟨S64x4095x64, .f32⟩
  | .hbm, ⟨49, _⟩ => ⟨S_, .f32⟩
  | .hbm, ⟨50, _⟩ => ⟨S64x4095x64, .f32⟩
  | .hbm, ⟨51, _⟩ => ⟨S64x4095x64, .f32⟩
  | .hbm, ⟨52, _⟩ => ⟨S64x1x64, .f32⟩
  | .hbm, ⟨53, _⟩ => ⟨S_, .f32⟩
  | .hbm, ⟨54, _⟩ => ⟨S64x1x64, .f32⟩
  | .hbm, ⟨55, _⟩ => ⟨S64x4094x64, .f32⟩
  | .hbm, ⟨56, _⟩ => ⟨S64x4095x64, .f32⟩
  | .hbm, ⟨57, _⟩ => ⟨S64x4095x64, .f32⟩
  | .hbm, ⟨58, _⟩ => ⟨S64x4095x64, .f32⟩
  | .hbm, ⟨59, _⟩ => ⟨S64x4095x64, .f32⟩
  | .hbm, ⟨60, _⟩ => ⟨S1x1x64, .f32⟩
  | .hbm, ⟨61, _⟩ => ⟨S64x4095x64, .f32⟩
  | .hbm, ⟨62, _⟩ => ⟨S64x4095x64, .f32⟩
  | .hbm, ⟨63, _⟩ => ⟨S64x4094x64, .f32⟩
  | .hbm, ⟨64, _⟩ => ⟨S64x4094x64, .f32⟩
  | .hbm, ⟨65, _⟩ => ⟨S64x4094x64, .f32⟩
  | .hbm, ⟨66, _⟩ => ⟨S_, .f32⟩
  | .hbm, ⟨67, _⟩ => ⟨S64x4096, .f32⟩
  | .hbm, ⟨68, _⟩ => ⟨S64x4096, .f32⟩
  | .hbm, ⟨69, _⟩ => ⟨S_, .f32⟩
  | .hbm, ⟨70, _⟩ => ⟨S64x4096, .f32⟩
  | .hbm, ⟨71, _⟩ => ⟨S64x4096, .f32⟩
  | .hbm, ⟨72, _⟩ => ⟨S64x4094, .f32⟩
  | .hbm, ⟨73, _⟩ => ⟨S64x4094, .f32⟩
  | .hbm, ⟨74, _⟩ => ⟨S64x4094, .f32⟩
  | .hbm, ⟨75, _⟩ => ⟨S_, .f32⟩
  | .hbm, ⟨76, _⟩ => ⟨S64x4094, .f32⟩
  | .hbm, ⟨77, _⟩ => ⟨S64x4094, .f32⟩
  | .hbm, ⟨78, _⟩ => ⟨S_, .f32⟩
  | .hbm, ⟨79, _⟩ => ⟨S64x4094, .f32⟩
  | .hbm, ⟨80, _⟩ => ⟨S64x4094, .f32⟩
  | .hbm, ⟨81, _⟩ => ⟨S64x4094x1, .f32⟩
  | .hbm, ⟨82, _⟩ => ⟨S64x4094x65, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_cst : Ref sig .tc := ⟨.hbm, 28, rfl⟩
abbrev main_call0_v0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_cst : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S64x1_S64x4096_0_1 : S64x1.BroadcastsInDim S64x4096 (![0, 1] : Fin 2 → Fin S64x4096.rank)
  bcast_S_S64x4096 : S_.BroadcastsInDim S64x4096 (![] : Fin 0 → Fin S64x4096.rank)
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  bcast_S_S64x4096x64 : S_.BroadcastsInDim S64x4096x64 (![] : Fin 0 → Fin S64x4096x64.rank)
  slices_S64x4096x64_S64x1x64_0_0_0 : S64x4096x64.Slices ![0, 0, 0] S64x1x64
  bcast_S_S64x1x64 : S_.BroadcastsInDim S64x1x64 (![] : Fin 0 → Fin S64x1x64.rank)
  slices_S64x4096x64_S64x4095x64_0_0_0 : S64x4096x64.Slices ![0, 0, 0] S64x4095x64
  concatenates_S64x1x64_S64x4095x64_S64x4096x64_d1 : Shape.Concatenates [S64x1x64, S64x4095x64] S64x4096x64 1
  slices_S64x4096x64_S64x4095x64_0_1_0 : S64x4096x64.Slices ![0, 1, 0] S64x4095x64
  bcast_S1x1x64_S64x4095x64_0_1_2 : S1x1x64.BroadcastsInDim S64x4095x64 (![0, 1, 2] : Fin 3 → Fin S64x4095x64.rank)
  bcast_S_S64x4095x64 : S_.BroadcastsInDim S64x4095x64 (![] : Fin 0 → Fin S64x4095x64.rank)
  slices_S64x4095x64_S64x1x64_0_0_0 : S64x4095x64.Slices ![0, 0, 0] S64x1x64
  slices_S64x4095x64_S64x4094x64_0_0_0 : S64x4095x64.Slices ![0, 0, 0] S64x4094x64
  concatenates_S64x1x64_S64x4094x64_S64x4095x64_d1 : Shape.Concatenates [S64x1x64, S64x4094x64] S64x4095x64 1
  slices_S64x4095x64_S64x4094x64_0_1_0 : S64x4095x64.Slices ![0, 1, 0] S64x4094x64
  slices_S64x4096_S64x4094_0_2 : S64x4096.Slices ![0, 2] S64x4094
  slices_S64x4096_S64x4094_0_0 : S64x4096.Slices ![0, 0] S64x4094
  bcast_S_S64x4094 : S_.BroadcastsInDim S64x4094 (![] : Fin 0 → Fin S64x4094.rank)
  bcast_S64x4094_S64x4094x1_0_1 : S64x4094.BroadcastsInDim S64x4094x1 (![0, 1] : Fin 2 → Fin S64x4094x1.rank)
  concatenates_S64x4094x64_S64x4094x1_S64x4094x65_d2 : Shape.Concatenates [S64x4094x64, S64x4094x1] S64x4094x65 2
  dot_S64x4096x64_S64x64_S64x4096x64_2_0_01_1_n_n_wf : DotDims.WF S64x4096x64 S64x64 S64x4096x64 [2] [0] [0, 1] [1] [] []
  dot_S64x4095x64_S64x64_S64x4095x64_2_0_01_1_n_n_wf : DotDims.WF S64x4095x64 S64x64 S64x4095x64 [2] [0] [0, 1] [1] [] []

variable [Facts₀]

def dot_S64x4096x64_S64x64_S64x4096x64_2_0_01_1_n_n : DotDims S64x4096x64 S64x64 S64x4096x64 where
  lhsContracting := [2]
  rhsContracting := [0]
  lhsNonContracting := [0, 1]
  rhsNonContracting := [1]
  lhsBatch := []
  rhsBatch := []
  wf := dot_S64x4096x64_S64x64_S64x4096x64_2_0_01_1_n_n_wf
def dot_S64x4095x64_S64x64_S64x4095x64_2_0_01_1_n_n : DotDims S64x4095x64 S64x64 S64x4095x64 where
  lhsContracting := [2]
  rhsContracting := [0]
  lhsNonContracting := [0, 1]
  rhsNonContracting := [1]
  lhsBatch := []
  rhsBatch := []
  wf := dot_S64x4095x64_S64x64_S64x4095x64_2_0_01_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibJoin2.lean ====
/-
  A concatenation of TWO pieces read at an index given by coordinates, over symbolic extents.
  Along the joined axis the result's coordinate `p` either lies in the first piece, which is then read at the same
  coordinate, or past it, and the second piece is read at `p` less the first piece's extent; every other coordinate
  is kept. Three layouts: two matrices stacked by rows; two rank-3 arrays joined along the middle axis; two rank-3
  arrays joined along the last axis.
-/
import Idealize.ShloMosaic.Lib.Pipeline.Value
import Idealize.ShloMosaic.Lib.ValueIdx

namespace Idealize.ShloMosaic.Join2

open Idealize.ShloMosaic Idealize.ShloMosaic.ValueIdx

variable {α : Type}

/-! ## Two matrices stacked by rows -/

/-- `[a, c]` over `[b, c]`: a row of the result that is one of the first `a` reads the upper matrix. -/
theorem rows_upper {a b n c : Nat} (x₁ : (⟨2, ![a, c]⟩ : Shape).Idx → α) (x₂ : (⟨2, ![b, c]⟩ : Shape).Idx → α)
    (h : Shape.Concatenates [(⟨2, ![a, c]⟩ : Shape), ⟨2, ![b, c]⟩] ⟨2, ![n, c]⟩ 0)
    (p : Fin n) (q : Fin c) (p' : Fin a) (hp : p'.val = p.val) :
    concatenate ⟨2, ![n, c]⟩ 0 [⟨⟨2, ![a, c]⟩, x₁⟩, ⟨⟨2, ![b, c]⟩, x₂⟩] h (ix2 p q) = x₁ (ix2 p' q) :=
  concatenate_pair_apply_left 0 x₁ x₂ h (ix2 p q) rfl (ix2 p' q) (fun d => by
    match d with
    | ⟨0, _⟩ => exact hp
    | ⟨1, _⟩ => rfl)

/-- `[a, c]` over `[b, c]`: a row of the result past the first `a` reads the lower matrix, `a` rows up. -/
theorem rows_lower {a b n c : Nat} (x₁ : (⟨2, ![a, c]⟩ : Shape).Idx → α) (x₂ : (⟨2, ![b, c]⟩ : Shape).Idx → α)
    (h : Shape.Concatenates [(⟨2, ![a, c]⟩ : Shape), ⟨2, ![b, c]⟩] ⟨2, ![n, c]⟩ 0)
    (p : Fin n) (q : Fin c) (p' : Fin b) (hp : p'.val + a = p.val) :
    concatenate ⟨2, ![n, c]⟩ 0 [⟨⟨2, ![a, c]⟩, x₁⟩, ⟨⟨2, ![b, c]⟩, x₂⟩] h (ix2 p q) = x₂ (ix2 p' q) :=
  concatenate_pair_apply_right 0 x₁ x₂ h (ix2 p q) rfl rfl (ix2 p' q)
    (fun d hd => by
      match d with
      | ⟨0, _⟩ => exact absurd rfl hd
      | ⟨1, _⟩ => rfl)
    hp

/-! ## Two rank-3 arrays joined along the middle axis -/

/-- `[u, a, c]` then `[u, b, c]` along axis 1: a middle coordinate among the first `a` reads the first array. -/
theorem mid_first {u a b n c : Nat} (x₁ : (⟨3, ![u, a, c]⟩ : Shape).Idx → α) (x₂ : (⟨3, ![u, b, c]⟩ : Shape).Idx → α)
    (h : Shape.Concatenates [(⟨3, ![u, a, c]⟩ : Shape), ⟨3, ![u, b, c]⟩] ⟨3, ![u, n, c]⟩ 1)
    (e : Fin u) (p : Fin n) (q : Fin c) (p' : Fin a) (hp : p'.val = p.val) :
    concatenate ⟨3, ![u, n, c]⟩ 1 [⟨⟨3, ![u, a, c]⟩, x₁⟩, ⟨⟨3, ![u, b, c]⟩, x₂⟩] h (ix3 e p q) = x₁ (ix3 e p' q) :=
  concatenate_pair_apply_left 1 x₁ x₂ h (ix3 e p q) rfl (ix3 e p' q) (fun d => by
    match d with
    | ⟨0, _⟩ => rfl
    | ⟨1, _⟩ => exact hp
    | ⟨2, _⟩ => rfl)

/-- `[u, a, c]` then `[u, b, c]` along axis 1: a middle coordinate past the first `a` reads the second array,
    `a` places back. -/
theorem mid_second {u a b n c : Nat} (x₁ : (⟨3, ![u, a, c]⟩ : Shape).Idx → α) (x₂ : (⟨3, ![u, b, c]⟩ : Shape).Idx → α)
    (h : Shape.Concatenates [(⟨3, ![u, a, c]⟩ : Shape), ⟨3, ![u, b, c]⟩] ⟨3, ![u, n, c]⟩ 1)
    (e : Fin u) (p : Fin n) (q : Fin c) (p' : Fin b) (hp : p'.val + a = p.val) :
    concatenate ⟨3, ![u, n, c]⟩ 1 [⟨⟨3, ![u, a, c]⟩, x₁⟩, ⟨⟨3, ![u, b, c]⟩, x₂⟩] h (ix3 e p q) = x₂ (ix3 e p' q) :=
  concatenate_pair_apply_right 1 x₁ x₂ h (ix3 e p q) rfl rfl (ix3 e p' q)
    (fun d hd => by
      match d with
      | ⟨0, _⟩ => rfl
      | ⟨1, _⟩ => exact absurd rfl hd
      | ⟨2, _⟩ => rfl)
    hp

/-! ## Two rank-3 arrays joined along the last axis -/

/-- `[u, v, a]` then `[u, v, b]` along axis 2: a last coordinate among the first `a` reads the first array. -/
theorem last_first {u v a b n : Nat} (x₁ : (⟨3, ![u, v, a]⟩ : Shape).Idx → α) (x₂ : (⟨3, ![u, v, b]⟩ : Shape).Idx → α)
    (h : Shape.Concatenates [(⟨3, ![u, v, a]⟩ : Shape), ⟨3, ![u, v, b]⟩] ⟨3, ![u, v, n]⟩ 2)
    (e : Fin u) (r : Fin v) (p : Fin n) (p' : Fin a) (hp : p'.val = p.val) :
    concatenate ⟨3, ![u, v, n]⟩ 2 [⟨⟨3, ![u, v, a]⟩, x₁⟩, ⟨⟨3, ![u, v, b]⟩, x₂⟩] h (ix3 e r p) = x₁ (ix3 e r p') :=
  concatenate_pair_apply_left 2 x₁ x₂ h (ix3 e r p) rfl (ix3 e r p') (fun d => by
    match d with
    | ⟨0, _⟩ => rfl
    | ⟨1, _⟩ => rfl
    | ⟨2, _⟩ => exact hp)

/-- `[u, v, a]` then `[u, v, b]` along axis 2: a last coordinate past the first `a` reads the second array,
    `a` places back. -/
theorem last_second {u v a b n : Nat} (x₁ : (⟨3, ![u, v, a]⟩ : Shape).Idx → α) (x₂ : (⟨3, ![u, v, b]⟩ : Shape).Idx → α)
    (h : Shape.Concatenates [(⟨3, ![u, v, a]⟩ : Shape), ⟨3, ![u, v, b]⟩] ⟨3, ![u, v, n]⟩ 2)
    (e : Fin u) (r : Fin v) (p : Fin n) (p' : Fin b) (hp : p'.val + a = p.val) :
    concatenate ⟨3, ![u, v, n]⟩ 2 [⟨⟨3, ![u, v, a]⟩, x₁⟩, ⟨⟨3, ![u, v, b]⟩, x₂⟩] h (ix3 e r p) = x₂ (ix3 e r p') :=
  concatenate_pair_apply_right 2 x₁ x₂ h (ix3 e r p) rfl rfl (ix3 e r p')
    (fun d hd => by
      match d with
      | ⟨0, _⟩ => rfl
      | ⟨1, _⟩ => rfl
      | ⟨2, _⟩ => exact absurd rfl hd)
    hp

end Idealize.ShloMosaic.Join2
-- ==== Proof.ChainSage.lean ====
/-
  The function both programs compute, index by index, on the extended reals.

  Each of the 64 sequences is a chain graph on its positions: position `l` has the one in-neighbour `l - 1`, and
  position 0 has none. A layer sends every position the pooled message of its predecessor — `max (x W_p + b_p) 0`,
  and nothing (zero) to position 0 —, and its feature is `x W_s + message W_n + b_s`. An edge `(l, l + 1)` is scored by
  the entrywise product of its endpoints' features, so a chain of `N` positions has `N - 1` edge rows. The edge rows
  of the first layer are the node features of the second; the second layer's edge rows, 4094 of them, are columns
  0 … 63 of the result. Column 64 is a local gap of the distances `d`: with `z l = (d l - μ) / σ`, row `l` holds
  `((z (l + 2) - z l) - μ) / σ`.

  Sums of products over the 64 input features are finite sums in the extended reals, every quotient is the extended
  reals' own (`Ideal.div`), and no law beyond unfolding these definitions is used: the two programs compute the
  same expression, arranged once per sequence and once over all sequences at a time.
-/
import Idealize.ShloMosaic.PureOps.Ideal

noncomputable section

open scoped BigOperators

namespace Cert.ChainSage

open Idealize.ShloMosaic

/-- `N` rows of 64 features. -/
abbrev Rows (N : Nat) : Type := Fin N → Fin 64 → EReal

variable {N : Nat}

/-- The pooled message each position would send: `max (x W + b) 0`, feature by feature. -/
def pool (X : Rows N) (W : Rows 64) (b : Fin 64 → EReal) : Rows N :=
  fun l f => max (∑ k : Fin 64, X l k * W k f + b f) 0

/-- What a position receives on the chain: its predecessor's row, and zero at position 0. -/
def fromPred (H : Rows N) : Rows N :=
  fun l f => if l.val = 0 then 0 else H ⟨l.val - 1, by have := l.isLt; omega⟩ f

/-- One layer: the position's own term, its predecessor's pooled message through `W_n`, and the bias. -/
def layer (X : Rows N) (Wp : Rows 64) (bp : Fin 64 → EReal) (Ws Wn : Rows 64) (bs : Fin 64 → EReal) : Rows N :=
  fun l f => (∑ k : Fin 64, X l k * Ws k f + ∑ k : Fin 64, fromPred (pool X Wp bp) l k * Wn k f) + bs f

/-- The edge `(l, l + 1)` scored by the entrywise product of its endpoints' rows: `M = N - 1` edge rows. -/
def edges (H : Rows N) (M : Nat) (hM : M + 1 = N) : Rows M :=
  fun l f => H ⟨l.val, by have := l.isLt; omega⟩ f * H ⟨l.val + 1, by have := l.isLt; omega⟩ f

/-- The normalised distance `(d - μ) / σ`. -/
def norm (μ σ : EReal) (d : Fin N → EReal) : Fin N → EReal :=
  fun l => Ideal.div (d l - μ) σ

/-- The local gap over a window of three: `((z (l + 2) - z l) - μ) / σ` with `z` the normalised distance;
    `M = N - 2` of them. -/
def gap (μ σ : EReal) (d : Fin N → EReal) (M : Nat) (hM : M + 2 = N) : Fin M → EReal :=
  fun l => Ideal.div ((norm μ σ d ⟨l.val + 2, by have := l.isLt; omega⟩ - norm μ σ d ⟨l.val, by have := l.isLt; omega⟩) - μ) σ

/-- The second layer's edge rows of one sequence of 4096 positions. -/
def scores (X : Rows 4096) (Wp1 : Rows 64) (bp1 : Fin 64 → EReal) (Ws1 Wn1 : Rows 64) (bs1 : Fin 64 → EReal)
    (Wp3 : Rows 64) (bp3 : Fin 64 → EReal) (Ws3 Wn3 : Rows 64) (bs3 : Fin 64 → EReal) : Rows 4094 :=
  edges (layer (edges (layer X Wp1 bp1 Ws1 Wn1 bs1) 4095 rfl) Wp3 bp3 Ws3 Wn3 bs3) 4094 rfl

/-- A row of the result: the 64 scores, then the local gap in column 64. -/
def outRow (s : Fin 64 → EReal) (g : EReal) (j : Fin 65) : EReal :=
  if h : j.val < 64 then s ⟨j.val, h⟩ else g

/-- A column among the first 64 is a score. -/
theorem outRow_lt (s : Fin 64 → EReal) (g : EReal) (j : Fin 65) (h : j.val < 64) : outRow s g j = s ⟨j.val, h⟩ := by
  unfold outRow; rw [dif_pos h]

/-- Column 64 is the gap. -/
theorem outRow_ge (s : Fin 64 → EReal) (g : EReal) (j : Fin 65) (h : 64 ≤ j.val) : outRow s g j = g := by
  unfold outRow; rw [dif_neg (by omega)]

/-- The two constants of the normalisation, as the single-precision words both programs carry. -/
abbrev μ : EReal := Ideal.ofBits .f32 0x3E8CA795#32
abbrev σ : EReal := Ideal.ofBits .f32 0x3E0219D6#32

end Cert.ChainSage

end
-- ==== Proof.TileLayer.lean ====
/-
  One layer of the chain on a TILE: the `N` positions of one sequence held as an `[N, 64]` array, the layer spelt
  with vector operations — matrix products into a zero accumulator, a bias row broadcast over the rows, a maximum
  with zero, a shift by one row made of a zero row stacked on the first `N - 1` rows, and the product of the rows
  `0 … N - 2` with the rows `1 … N - 1`. Each stage is read at an entry `(p, q)`, and the stages compose to the layer
  and the edge scores of `ChainSage`. The local gap of a distance column `[N, 1]` is read the same way.
  Narrowing an entry to a shorter float format changes nothing in the extended reals, so the operands of the
  products are taken in the format the products find them in.
-/
import Idealize.ShloMosaic.PureOps.Ideal
import Idealize.ShloMosaic.PureOps.Ideal.Laws
import Idealize.ShloMosaic.Lib.ValueIdx
import Idealize.ShloMosaic.Lib.ValueLayout
import proofs.«410198_j14946486190734_1_alg».proof.Proof.LibRowDims
import proofs.«410198_j14946486190734_1_alg».proof.Proof.LibJoin2
import proofs.«410198_j14946486190734_1_alg».proof.Proof.ChainSage

noncomputable section

open scoped BigOperators

namespace Cert.ChainSage.Tile

open Idealize.ShloMosaic Idealize.ShloMosaic.ValueIdx

/-- `N` rows of 64 features as an array. -/
abbrev Sh (N : Nat) : Shape := ⟨2, ![N, 64]⟩
/-- A `64 × 64` weight. -/
abbrev ShW : Shape := ⟨2, ![64, 64]⟩
/-- A bias of 64 entries, and the same as one row. -/
abbrev ShB : Shape := ⟨1, ![64]⟩
abbrev ShB1 : Shape := ⟨2, ![1, 64]⟩
/-- A column of `N` entries. -/
abbrev ShC (N : Nat) : Shape := ⟨2, ![N, 1]⟩

/-- An array's entries as rows, and a bias' entries as a function of the feature. -/
def rows {N : Nat} (X : (Sh N).Idx → EReal) : Rows N := fun l k => X (ix2 l k)
def feat (b : ShB.Idx → EReal) : Fin 64 → EReal := fun f => b (ix1 f)
def col {N : Nat} (d : (ShC N).Idx → EReal) : Fin N → EReal := fun l => d (ix2 l 0)

/-- Sequence `b`'s rows of a `[64, N, 64]` array, and its entries of a `[64, N]` array. -/
def seqRows {N : Nat} (A : (⟨3, ![64, N, 64]⟩ : Shape).Idx → EReal) (b : Fin 64) : Rows N := fun l k => A (ix3 b l k)
def seqCol {N : Nat} (d : (⟨2, ![64, N]⟩ : Shape).Idx → EReal) (b : Fin 64) : Fin N → EReal := fun l => d (ix2 b l)

/-- THE RESULT as one function of the twelve arrays it depends on: entry `(b, l, j)` is column `j` of row `l` of
    sequence `b` — a score of the second layer's edges for `j < 64`, the local gap for `j = 64`. -/
def resultArr (loc : (⟨3, ![64, 4096, 64]⟩ : Shape).Idx → EReal) (dis : (⟨2, ![64, 4096]⟩ : Shape).Idx → EReal)
    (Wp1 : ShW.Idx → EReal) (bp1 : ShB.Idx → EReal) (Ws1 Wn1 : ShW.Idx → EReal) (bs1 : ShB.Idx → EReal)
    (Wp3 : ShW.Idx → EReal) (bp3 : ShB.Idx → EReal) (Ws3 Wn3 : ShW.Idx → EReal) (bs3 : ShB.Idx → EReal) :
    (⟨3, ![64, 4094, 65]⟩ : Shape).Idx → EReal :=
  fun i => outRow
    (scores (seqRows loc (i 0)) (rows Wp1) (feat bp1) (rows Ws1) (rows Wn1) (feat bs1)
      (rows Wp3) (feat bp3) (rows Ws3) (rows Wn3) (feat bs3) (i 1))
    (gap μ σ (seqCol dis (i 0)) 4094 rfl (i 1)) (i 2)

/-- The result at an index whose coordinates are known as numbers. -/
theorem resultArr_at (loc : (⟨3, ![64, 4096, 64]⟩ : Shape).Idx → EReal) (dis : (⟨2, ![64, 4096]⟩ : Shape).Idx → EReal)
    (Wp1 : ShW.Idx → EReal) (bp1 : ShB.Idx → EReal) (Ws1 Wn1 : ShW.Idx → EReal) (bs1 : ShB.Idx → EReal)
    (Wp3 : ShW.Idx → EReal) (bp3 : ShB.Idx → EReal) (Ws3 Wn3 : ShW.Idx → EReal) (bs3 : ShB.Idx → EReal)
    (i : (⟨3, ![64, 4094, 65]⟩ : Shape).Idx) (b : Fin 64) (l : Fin 4094) (j : Fin 65)
    (h0 : (i 0).val = b.val) (h1 : (i 1).val = l.val) (h2 : (i 2).val = j.val) :
    resultArr loc dis Wp1 bp1 Ws1 Wn1 bs1 Wp3 bp3 Ws3 Wn3 bs3 i
      = outRow
          (scores (seqRows loc b) (rows Wp1) (feat bp1) (rows Ws1) (rows Wn1) (feat bs1)
            (rows Wp3) (feat bp3) (rows Ws3) (rows Wn3) (feat bs3) l)
          (gap μ σ (seqCol dis b) 4094 rfl l) j := by
  have e0 : (i 0 : Fin 64) = b := Fin.ext h0
  have e1 : (i 1 : Fin 4094) = l := Fin.ext h1
  have e2 : (i 2 : Fin 65) = j := Fin.ext h2
  unfold resultArr
  rw [e0, e1, e2]

/-- A trailing unit axis added by a shape cast: `[a, b]` cast to `[a, b, 1]` reads, at `(i, j, w)`, the operand at
    `(i, j)`. -/
theorem shapeCast_ab_ab1_apply {α : Type} {a b : Nat} (x : (⟨2, ![a, b]⟩ : Shape).Idx → α)
    (h : (⟨2, ![a, b]⟩ : Shape).ShapeCasts ⟨3, ![a, b, 1]⟩) (i : Fin a) (j : Fin b) (w : Fin 1) :
    shapeCast ⟨3, ![a, b, 1]⟩ x h (ix3 i j w) = x (ix2 i j) :=
  shapeCast_apply x h _ _ (by
    have hw : w.val = 0 := by omega
    rw [Shape.rowMajor_val_three, Shape.rowMajor_val_two]
    show i.val * b + j.val = (i.val * b + j.val) * 1 + w.val
    rw [hw, Nat.mul_one, Nat.add_zero])

variable {N M : Nat}

/-! ## The stages -/

/-- `x W + b`: the product into a zero accumulator plus the bias row over every row. -/
def affine (D : DotDims (Sh N) ShW (Sh N)) (hc : ShB.ShapeCasts ShB1) (hb : ShB1.Broadcasts (Sh N))
    (X : FVec Ideal (Sh N) .bf16) (W : FVec Ideal ShW .bf16) (b : FVec Ideal ShB .f32) : FVec Ideal (Sh N) .f32 :=
  addf (FloatOps.matmul D none X W (constant (Sh N) .f32 0x00000000#32)) (broadcastTo (Sh N) (shapeCast ShB1 b hc) hb)

/-- The maximum with zero. -/
def relu (A : FVec Ideal (Sh N) .f32) : FVec Ideal (Sh N) .f32 :=
  maximumf A (broadcast (Sh N) (Scalar.ofBits .f32 0x00000000#32))

/-- Every row moved one place down, a zero row on top, the last row dropped. -/
def shiftDown (hs : (Sh N).Slices ![0, 0] (Sh M)) (hcat : Shape.Concatenates [ShB1, Sh M] (Sh N) 0)
    (H : FVec Ideal (Sh N) .f32) : FVec Ideal (Sh N) .f32 :=
  concatenate (Sh N) 0 [⟨ShB1, broadcast ShB1 (Scalar.ofBits .f32 0x00000000#32)⟩,
    ⟨Sh M, extractStridedSlice (Sh M) ![0, 0] H hs⟩] hcat

/-- The layer: own term, the shifted pooled message through `W_n`, the bias. -/
def conv (D : DotDims (Sh N) ShW (Sh N)) (hc : ShB.ShapeCasts ShB1) (hb : ShB1.Broadcasts (Sh N))
    (hs : (Sh N).Slices ![0, 0] (Sh M)) (hcat : Shape.Concatenates [ShB1, Sh M] (Sh N) 0)
    (hlt : FTy.bf16.bits < FTy.f32.bits)
    (X : FVec Ideal (Sh N) .bf16) (Wp : FVec Ideal ShW .bf16) (bp : FVec Ideal ShB .f32)
    (Ws Wn : FVec Ideal ShW .bf16) (bs : FVec Ideal ShB .f32) : FVec Ideal (Sh N) .f32 :=
  addf
    (addf (FloatOps.matmul D none X Ws (constant (Sh N) .f32 0x00000000#32))
      (FloatOps.matmul D none (truncf .bf16 (shiftDown hs hcat (relu (affine D hc hb X Wp bp))) hlt) Wn
        (constant (Sh N) .f32 0x00000000#32)))
    (broadcastTo (Sh N) (shapeCast ShB1 bs hc) hb)

/-- Rows `0 … N - 2` times rows `1 … N - 1`, entry by entry. -/
def edgeProd (hs0 : (Sh N).Slices ![0, 0] (Sh M)) (hs1 : (Sh N).Slices ![1, 0] (Sh M))
    (H : FVec Ideal (Sh N) .f32) : FVec Ideal (Sh M) .f32 :=
  mulf (extractStridedSlice (Sh M) ![0, 0] H hs0) (extractStridedSlice (Sh M) ![1, 0] H hs1)

/-- The normalised distance column `(d - μ) / σ`. -/
def normCol (μ σ : BitVec 32) (d : FVec Ideal (ShC N) .f32) : FVec Ideal (ShC N) .f32 :=
  divf (subf d (broadcast (ShC N) (Scalar.ofBits .f32 μ))) (broadcast (ShC N) (Scalar.ofBits .f32 σ))

/-- The local gap column: rows `2 …` less rows `0 …` of the normalised column, normalised again. -/
def gapCol (hs2 : (ShC N).Slices ![2, 0] (ShC M)) (hs0 : (ShC N).Slices ![0, 0] (ShC M)) (μ σ : BitVec 32)
    (d : FVec Ideal (ShC N) .f32) : FVec Ideal (ShC M) .f32 :=
  divf
    (subf
      (subf (extractStridedSlice (ShC M) ![2, 0] (normCol μ σ d) hs2) (extractStridedSlice (ShC M) ![0, 0] (normCol μ σ d) hs0))
      (broadcast (ShC M) (Scalar.ofBits .f32 μ)))
    (broadcast (ShC M) (Scalar.ofBits .f32 σ))

/-! ## The stages at an entry -/

/-- The zero word is the real zero. -/
theorem zero_word : (Scalar.ofBits (F := Ideal) .f32 0x00000000#32 : EReal) = 0 := Ideal.ofBits_zero_f32

theorem affine_apply (D : DotDims (Sh N) ShW (Sh N)) (hD : D = DotDims.plain N 64 64)
    (hc : ShB.ShapeCasts ShB1) (hb : ShB1.Broadcasts (Sh N))
    (X : FVec Ideal (Sh N) .bf16) (W : FVec Ideal ShW .bf16) (b : FVec Ideal ShB .f32) (p : Fin N) (q : Fin 64) :
    affine D hc hb X W b (ix2 p q) = ∑ k : Fin 64, X (ix2 p k) * W (ix2 k q) + b (ix1 q) := by
  subst hD
  unfold affine
  rw [addf_apply, RowDims.matmul_plain_zero_apply, broadcastTo_1b_ab_apply, shapeCast_a_1a_apply]

theorem relu_apply (A : FVec Ideal (Sh N) .f32) (p : Fin N) (q : Fin 64) :
    relu A (ix2 p q) = max (A (ix2 p q)) 0 := by
  unfold relu
  rw [maximumf_apply, broadcast_apply, zero_word]

/-- The shifted array: zero in row 0, the row above elsewhere. -/
theorem shiftDown_apply (hM : M + 1 = N) (hs : (Sh N).Slices ![0, 0] (Sh M))
    (hcat : Shape.Concatenates [ShB1, Sh M] (Sh N) 0) (H : FVec Ideal (Sh N) .f32) (p : Fin N) (q : Fin 64) :
    shiftDown hs hcat H (ix2 p q)
      = if p.val = 0 then 0 else H (ix2 ⟨p.val - 1, by have := p.isLt; omega⟩ q) := by
  unfold shiftDown
  by_cases h0 : p.val = 0
  · rw [if_pos h0]
    refine (Join2.rows_upper _ _ hcat p q (⟨0, Nat.one_pos⟩ : Fin 1) h0.symm).trans ?_
    rw [broadcast_apply, zero_word]
  · rw [if_neg h0]
    have hp := p.isLt
    refine (Join2.rows_lower _ _ hcat p q (⟨p.val - 1, by omega⟩ : Fin M) (by show p.val - 1 + 1 = p.val; omega)).trans ?_
    exact slice2_axis0_apply 0 H hs _ q _ (by show p.val - 1 = 0 + (p.val - 1); omega)

/-- The layer at an entry is `ChainSage.layer` of the operands' rows. -/
theorem conv_apply (hM : M + 1 = N) (D : DotDims (Sh N) ShW (Sh N)) (hD : D = DotDims.plain N 64 64)
    (hc : ShB.ShapeCasts ShB1) (hb : ShB1.Broadcasts (Sh N))
    (hs : (Sh N).Slices ![0, 0] (Sh M)) (hcat : Shape.Concatenates [ShB1, Sh M] (Sh N) 0)
    (hlt : FTy.bf16.bits < FTy.f32.bits)
    (X : FVec Ideal (Sh N) .bf16) (Wp : FVec Ideal ShW .bf16) (bp : FVec Ideal ShB .f32)
    (Ws Wn : FVec Ideal ShW .bf16) (bs : FVec Ideal ShB .f32) (p : Fin N) (q : Fin 64) :
    conv D hc hb hs hcat hlt X Wp bp Ws Wn bs (ix2 p q)
      = layer (rows X) (rows Wp) (feat bp) (rows Ws) (rows Wn) (feat bs) p q := by
  have hmsg : ∀ k : Fin 64,
      (truncf .bf16 (shiftDown hs hcat (relu (affine D hc hb X Wp bp))) hlt : FVec Ideal (Sh N) .bf16) (ix2 p k)
        = fromPred (pool (rows X) (rows Wp) (feat bp)) p k := by
    intro k
    rw [truncf_apply, shiftDown_apply hM]
    unfold fromPred
    by_cases h0 : p.val = 0
    · rw [if_pos h0, if_pos h0]
    · rw [if_neg h0, if_neg h0, relu_apply, affine_apply D hD]
      rfl
  subst hD
  unfold conv layer
  rw [addf_apply, addf_apply, RowDims.matmul_plain_zero_apply, RowDims.matmul_plain_zero_apply,
    broadcastTo_1b_ab_apply, shapeCast_a_1a_apply]
  simp only [hmsg]
  rfl

/-- The edge scores at an entry. -/
theorem edgeProd_apply (hM : M + 1 = N) (hs0 : (Sh N).Slices ![0, 0] (Sh M)) (hs1 : (Sh N).Slices ![1, 0] (Sh M))
    (H : FVec Ideal (Sh N) .f32) (p : Fin M) (q : Fin 64) :
    edgeProd hs0 hs1 H (ix2 p q) = edges (rows H) M hM p q := by
  unfold edgeProd
  rw [mulf_apply]
  have hp := p.isLt
  rw [slice2_axis0_apply 0 H hs0 p q (⟨p.val, by omega⟩ : Fin N) (by show p.val = 0 + p.val; omega),
    slice2_axis0_apply 1 H hs1 p q (⟨p.val + 1, by omega⟩ : Fin N) (by show p.val + 1 = 1 + p.val; omega)]
  rfl

theorem normCol_apply (μ σ : BitVec 32) (d : FVec Ideal (ShC N) .f32) (l : Fin N) :
    normCol μ σ d (ix2 l 0) = norm (Ideal.ofBits .f32 μ) (Ideal.ofBits .f32 σ) (col d) l := by
  unfold normCol
  rw [divf_apply, subf_apply, broadcast_apply, broadcast_apply]
  rfl

/-- The local gap at a row. -/
theorem gapCol_apply (hM : M + 2 = N) (hs2 : (ShC N).Slices ![2, 0] (ShC M)) (hs0 : (ShC N).Slices ![0, 0] (ShC M))
    (μ σ : BitVec 32) (d : FVec Ideal (ShC N) .f32) (l : Fin M) :
    gapCol hs2 hs0 μ σ d (ix2 l 0) = gap (Ideal.ofBits .f32 μ) (Ideal.ofBits .f32 σ) (col d) M hM l := by
  unfold gapCol
  rw [divf_apply, subf_apply, subf_apply, broadcast_apply, broadcast_apply]
  have hl := l.isLt
  rw [slice2_axis0_apply 2 (normCol μ σ d) hs2 l 0 (⟨l.val + 2, by omega⟩ : Fin N) (by show l.val + 2 = 2 + l.val; omega),
    slice2_axis0_apply 0 (normCol μ σ d) hs0 l 0 (⟨l.val, by omega⟩ : Fin N) (by show l.val = 0 + l.val; omega),
    normCol_apply, normCol_apply]
  rfl

end Cert.ChainSage.Tile

end
-- ==== Proof.TileBlock.lean ====
/-
  What the kernel leaves in ONE output block. At a grid point the body holds one sequence: its `[1, 4096, 64]`
  feature block, its `[1, 4096, 1]` distance block, and the ten weights and biases whole. It stores the second
  layer's edge scores into columns 0 … 63 of the `[1, 4094, 65]` output block and the local gap into column 64.
  The stored values are the tile stages of `TileLayer` by unfolding alone, so at an entry they are `ChainSage`'s
  scores and gap of the sequence in the block; and the two stores together, whatever the block held before, leave
  the block at `outRow scores gap`, entry by entry.
-/
import proofs.«410198_j14946486190734_1_alg».proof.Proof.Gen.KernelIdeal.Frame
import Idealize.ShloMosaic.Lib.Pipeline.Value
import Idealize.ShloMosaic.Lib.Tactic
import proofs.«410198_j14946486190734_1_alg».proof.Proof.TileLayer

set_option maxRecDepth 16384

noncomputable section

open scoped BigOperators

namespace Cert.ChainSage.Block

open Idealize.ShloMosaic Idealize.ShloMosaic.TcCoe Idealize.ShloMosaic.Tactic Idealize.SL.Sem Idealize.ShloMosaic.ValueIdx
open Cert.KernelIdeal Cert.KernelIdeal.Gen
open Cert.ChainSage.Tile

/-- The rows of the sequence a `[1, N, 64]` block holds, and the entries of a `[1, N, 1]` block. -/
def blkRows {N : Nat} (v : (⟨3, ![1, N, 64]⟩ : Shape).Idx → EReal) : Rows N := fun l k => v (ix3 (0 : Fin 1) l k)
def blkCol {N : Nat} (v : (⟨3, ![1, N, 1]⟩ : Shape).Idx → EReal) : Fin N → EReal := fun l => v (ix3 (0 : Fin 1) l (0 : Fin 1))

/-! ## The stored values are the tile stages -/

/-- Both contractions are the plain `[N, 64] × [64, 64]` one. -/
theorem dot4096 : dot_S4096x64_S64x64_S4096x64_1_0_0_1_n_n = DotDims.plain 4096 64 64 := rfl
theorem dot4095 : dot_S4095x64_S64x64_S4095x64_1_0_0_1_n_n = DotDims.plain 4095 64 64 := rfl

/-- The first layer's features of the tile. -/
abbrev h1 (v0 : Vec Ideal S1x4096x64 .f32) (v5 v7 v9 : Vec Ideal S64x64 .f32) (v11 v12 : Vec Ideal S64 .f32) :
    FVec Ideal S4096x64 .f32 :=
  conv (N := 4096) (M := 4095) dot_S4096x64_S64x64_S4096x64_1_0_0_1_n_n shapeCasts_S64_S1x64 broadcasts_S1x64_S4096x64
    slices_S4096x64_o0_0_S4095x64 concatenates_S1x64_S4095x64_S4096x64_d0 bitsLt_bf16_f32
    (truncf .bf16 (shapeCast S4096x64 v0 shapeCasts_S1x4096x64_S4096x64) bitsLt_bf16_f32)
    (truncf .bf16 v5 bitsLt_bf16_f32) v11 (truncf .bf16 v7 bitsLt_bf16_f32) (truncf .bf16 v9 bitsLt_bf16_f32) v12

theorem pay3_stages (v0 : Vec Ideal S1x4096x64 .f32) (v5 v7 v9 : Vec Ideal S64x64 .f32) (v11 v12 : Vec Ideal S64 .f32) :
    k0_pay3 (F := Ideal) v0 v5 v7 v9 v11 v12
      = edgeProd (N := 4096) (M := 4095) slices_S4096x64_o0_0_S4095x64 slices_S4096x64_o1_0_S4095x64
          (h1 v0 v5 v7 v9 v11 v12) := rfl

/-- The second layer's features, on 4095 rows `s`. -/
abbrev h2 (s : FVec Ideal S4095x64 .f32) (w33 w35 : FVec Ideal S64x64 .bf16) (v36 : Vec Ideal S64x64 .f32)
    (v38 v39 : Vec Ideal S64 .f32) : FVec Ideal S4095x64 .f32 :=
  conv (N := 4095) (M := 4094) dot_S4095x64_S64x64_S4095x64_1_0_0_1_n_n shapeCasts_S64_S1x64 broadcasts_S1x64_S4095x64
    slices_S4095x64_o0_0_S4094x64 concatenates_S1x64_S4094x64_S4095x64_d0 bitsLt_bf16_f32
    (truncf .bf16 s bitsLt_bf16_f32) w33 v38 w35 (truncf .bf16 v36 bitsLt_bf16_f32) v39

theorem pay7_stages (v31 : FVec Ideal S4095x64 .f32) (v33 v35 : FVec Ideal S64x64 .bf16) (v36 : Vec Ideal S64x64 .f32)
    (v38 v39 : Vec Ideal S64 .f32) :
    k0_pay7 (F := Ideal) v31 v33 v35 v36 v38 v39
      = shapeCast S1x4094x64
          (edgeProd (N := 4095) (M := 4094) slices_S4095x64_o0_0_S4094x64 slices_S4095x64_o1_0_S4094x64
            (h2 v31 v33 v35 v36 v38 v39))
          shapeCasts_S4094x64_S1x4094x64 := rfl

theorem gap_stages (v2 : Vec Ideal S1x4096x1 .f32) :
    k0_pay1 (F := Ideal) (k0_pay6 (k0_pay2 v2))
      = shapeCast S1x4094x1
          (gapCol (N := 4096) (M := 4094) slices_S4096x1_o2_0_S4094x1 slices_S4096x1_o0_0_S4094x1
            0x3E8CA795#32 0x3E0219D6#32 (shapeCast S4096x1 v2 shapeCasts_S1x4096x1_S4096x1))
          shapeCasts_S4094x1_S1x4094x1 := rfl

/-! ## The stored values at an entry -/

/-- The tile's rows are the block's sequence. -/
theorem rows_tile (v0 : Vec Ideal S1x4096x64 .f32) :
    rows (N := 4096) (truncf (F := Ideal) .bf16 (shapeCast S4096x64 v0 shapeCasts_S1x4096x64_S4096x64) bitsLt_bf16_f32)
      = blkRows v0 := by
  funext l k
  exact shapeCast_1ab_ab_apply v0 shapeCasts_S1x4096x64_S4096x64 l k

theorem layer1_rows (v0 : Vec Ideal S1x4096x64 .f32) (v5 v7 v9 : Vec Ideal S64x64 .f32) (v11 v12 : Vec Ideal S64 .f32) :
    rows (N := 4096) (h1 v0 v5 v7 v9 v11 v12)
      = layer (blkRows v0) (rows v5) (feat v11) (rows v7) (rows v9) (feat v12) := by
  funext p q
  refine (conv_apply (N := 4096) (M := 4095) rfl _ dot4096 _ _ _ _ _ _ _ _ _ _ _ p q).trans ?_
  rw [rows_tile]
  rfl

/-- The first layer's edge scores, as stored for the second layer. -/
theorem scores1_entry (v0 : Vec Ideal S1x4096x64 .f32) (v5 v7 v9 : Vec Ideal S64x64 .f32) (v11 v12 : Vec Ideal S64 .f32)
    (l : Fin 4095) (f : Fin 64) :
    k0_pay3 (F := Ideal) v0 v5 v7 v9 v11 v12 (ix2 l f)
      = edges (layer (blkRows v0) (rows v5) (feat v11) (rows v7) (rows v9) (feat v12)) 4095 rfl l f := by
  rw [pay3_stages, edgeProd_apply rfl, layer1_rows]

theorem layer2_rows (v0 : Vec Ideal S1x4096x64 .f32) (v5 v7 v9 : Vec Ideal S64x64 .f32) (v11 v12 : Vec Ideal S64 .f32)
    (v32 v34 v36 : Vec Ideal S64x64 .f32) (v38 v39 : Vec Ideal S64 .f32) :
    rows (N := 4095) (h2 (k0_pay3 (F := Ideal) v0 v5 v7 v9 v11 v12) (k0_pay4 v32) (k0_pay5 v34) v36 v38 v39)
      = layer (edges (layer (blkRows v0) (rows v5) (feat v11) (rows v7) (rows v9) (feat v12)) 4095 rfl)
          (rows v32) (feat v38) (rows v34) (rows v36) (feat v39) := by
  funext p q
  refine (conv_apply (N := 4095) (M := 4094) rfl _ dot4095 _ _ _ _ _ _ _ _ _ _ _ p q).trans ?_
  have e : rows (N := 4095) (truncf (F := Ideal) .bf16 (k0_pay3 (F := Ideal) v0 v5 v7 v9 v11 v12) bitsLt_bf16_f32)
      = edges (layer (blkRows v0) (rows v5) (feat v11) (rows v7) (rows v9) (feat v12)) 4095 rfl := by
    funext l k
    exact scores1_entry v0 v5 v7 v9 v11 v12 l k
  rw [e]
  rfl

/-- The stored score columns at an entry. -/
theorem scores_entry (v0 : Vec Ideal S1x4096x64 .f32) (v5 v7 v9 : Vec Ideal S64x64 .f32) (v11 v12 : Vec Ideal S64 .f32)
    (v32 v34 v36 : Vec Ideal S64x64 .f32) (v38 v39 : Vec Ideal S64 .f32) (u : Fin 1) (l : Fin 4094) (f : Fin 64) :
    k0_pay7 (F := Ideal) (k0_pay3 v0 v5 v7 v9 v11 v12) (k0_pay4 v32) (k0_pay5 v34) v36 v38 v39 (ix3 u l f)
      = scores (blkRows v0) (rows v5) (feat v11) (rows v7) (rows v9) (feat v12)
          (rows v32) (feat v38) (rows v34) (rows v36) (feat v39) l f := by
  rw [pay7_stages]
  refine (shapeCast_ab_1ab_apply _ shapeCasts_S4094x64_S1x4094x64 u l f).trans ?_
  rw [edgeProd_apply rfl, layer2_rows]
  rfl

/-- The stored gap column at an entry. -/
theorem gap_entry (v2 : Vec Ideal S1x4096x1 .f32) (u : Fin 1) (l : Fin 4094) (w : Fin 1) :
    k0_pay1 (F := Ideal) (k0_pay6 (k0_pay2 v2)) (ix3 u l w) = gap μ σ (blkCol v2) 4094 rfl l := by
  obtain rfl : w = 0 := Subsingleton.elim _ _
  rw [gap_stages]
  refine (shapeCast_ab_1ab_apply _ shapeCasts_S4094x1_S1x4094x1 u l 0).trans ?_
  rw [gapCol_apply rfl]
  have e : col (N := 4096) (shapeCast S4096x1 v2 shapeCasts_S1x4096x1_S4096x1) = blkCol v2 := by
    funext i
    exact shapeCast_1ab_ab_apply v2 shapeCasts_S1x4096x1_S4096x1 i 0
  rw [e]

/-! ## The block the two stores leave -/

/-- Row `l` of the block, column `j`. -/
def blockAt (x0 : Vec Ideal S1x4096x64 .f32) (x1 : Vec Ideal S1x4096x1 .f32) (x2 : Vec Ideal S64x64 .f32) (x3 : Vec Ideal S64 .f32) (x4 x5 : Vec Ideal S64x64 .f32) (x6 : Vec Ideal S64 .f32) (x7 : Vec Ideal S64x64 .f32) (x8 : Vec Ideal S64 .f32) (x9 x10 : Vec Ideal S64x64 .f32) (x11 : Vec Ideal S64 .f32) (l : Fin 4094) (j : Fin 65) : EReal :=
  outRow (scores (blkRows x0) (rows x2) (feat x3) (rows x4) (rows x5) (feat x6) (rows x7) (feat x8) (rows x9) (rows x10) (feat x11) l)
    (gap μ σ (blkCol x1) 4094 rfl l) j

/-- The block as a function of its index. -/
def block (x0 : Vec Ideal S1x4096x64 .f32) (x1 : Vec Ideal S1x4096x1 .f32) (x2 : Vec Ideal S64x64 .f32) (x3 : Vec Ideal S64 .f32) (x4 x5 : Vec Ideal S64x64 .f32) (x6 : Vec Ideal S64 .f32) (x7 : Vec Ideal S64x64 .f32) (x8 : Vec Ideal S64 .f32) (x9 x10 : Vec Ideal S64x64 .f32) (x11 : Vec Ideal S64 .f32) : S1x4094x65.Idx → EReal :=
  fun y => blockAt x0 x1 x2 x3 x4 x5 x6 x7 x8 x9 x10 x11 (y 1) (y 2)

theorem block_at (x0 : Vec Ideal S1x4096x64 .f32) (x1 : Vec Ideal S1x4096x1 .f32) (x2 : Vec Ideal S64x64 .f32) (x3 : Vec Ideal S64 .f32) (x4 x5 : Vec Ideal S64x64 .f32) (x6 : Vec Ideal S64 .f32) (x7 : Vec Ideal S64x64 .f32) (x8 : Vec Ideal S64 .f32) (x9 x10 : Vec Ideal S64x64 .f32) (x11 : Vec Ideal S64 .f32) (y : S1x4094x65.Idx) (l : Fin 4094) (j : Fin 65)
    (h1 : (y 1).val = l.val) (h2 : (y 2).val = j.val) :
    block x0 x1 x2 x3 x4 x5 x6 x7 x8 x9 x10 x11 y = blockAt x0 x1 x2 x3 x4 x5 x6 x7 x8 x9 x10 x11 l j := by
  have e1 : (y 1 : Fin 4094) = l := Fin.ext h1
  have e2 : (y 2 : Fin 65) = j := Fin.ext h2
  unfold block
  rw [e1, e2]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The gap store's value is the block's column 64. -/
theorem gap_piece (x0 : Vec Ideal S1x4096x64 .f32) (x1 : Vec Ideal S1x4096x1 .f32) (x2 : Vec Ideal S64x64 .f32) (x3 : Vec Ideal S64 .f32) (x4 x5 : Vec Ideal S64x64 .f32) (x6 : Vec Ideal S64 .f32) (x7 : Vec Ideal S64x64 .f32) (x8 : Vec Ideal S64 .f32) (x9 x10 : Vec Ideal S64x64 .f32) (x11 : Vec Ideal S64 .f32)
    (inb : ∀ a, (![0, 0, 64] : Fin 3 → Nat) a + (![1, 4094, 1] : Fin 3 → Nat) a ≤ S1x4094x65.size a) (x : S1x4094x1.Idx) :
    k0_pay1 (F := Ideal) (k0_pay6 (k0_pay2 x1)) x
      = block x0 x1 x2 x3 x4 x5 x6 x7 x8 x9 x10 x11 ((Rect.unit (s := S1x4094x65) ![0, 0, 64] ![1, 4094, 1] inb).emb x) := by
  obtain ⟨u, l, w, rfl⟩ : ∃ (u : Fin 1) (l : Fin 4094) (w : Fin 1), x = ix3 u l w := ⟨x 0, x 1, x 2, eq_ix3 x⟩
  refine (gap_entry x1 u l w).trans ?_
  refine Eq.trans ?_ (block_at x0 x1 x2 x3 x4 x5 x6 x7 x8 x9 x10 x11 _ l (⟨64, by decide⟩ : Fin 65)
    (by show 0 + 1 * l.val = l.val; omega) (by show 64 + 1 * w.val = 64; have := w.isLt; omega)).symm
  exact (outRow_ge _ _ _ (Nat.le_refl 64)).symm

/-- The score store's values are the block's columns 0 … 63. -/
theorem scores_piece (x0 : Vec Ideal S1x4096x64 .f32) (x1 : Vec Ideal S1x4096x1 .f32) (x2 : Vec Ideal S64x64 .f32) (x3 : Vec Ideal S64 .f32) (x4 x5 : Vec Ideal S64x64 .f32) (x6 : Vec Ideal S64 .f32) (x7 : Vec Ideal S64x64 .f32) (x8 : Vec Ideal S64 .f32) (x9 x10 : Vec Ideal S64x64 .f32) (x11 : Vec Ideal S64 .f32)
    (inb : ∀ a, (![0, 0, 0] : Fin 3 → Nat) a + (![1, 4094, 64] : Fin 3 → Nat) a ≤ S1x4094x65.size a) (x : S1x4094x64.Idx) :
    k0_pay7 (F := Ideal) (k0_pay3 x0 x2 x4 x5 x3 x6) (k0_pay4 x7) (k0_pay5 x9) x10 x8 x11 x
      = block x0 x1 x2 x3 x4 x5 x6 x7 x8 x9 x10 x11 ((Rect.unit (s := S1x4094x65) ![0, 0, 0] ![1, 4094, 64] inb).emb x) := by
  obtain ⟨u, l, f, rfl⟩ : ∃ (u : Fin 1) (l : Fin 4094) (f : Fin 64), x = ix3 u l f := ⟨x 0, x 1, x 2, eq_ix3 x⟩
  have hf := f.isLt
  refine (scores_entry x0 x2 x4 x5 x3 x6 x7 x9 x10 x8 x11 u l f).trans ?_
  refine Eq.trans ?_ (block_at x0 x1 x2 x3 x4 x5 x6 x7 x8 x9 x10 x11 _ l (⟨f.val, by omega⟩ : Fin 65)
    (by show 0 + 1 * l.val = l.val; omega) (by show 0 + 1 * f.val = f.val; omega)).symm
  exact (outRow_lt _ _ (⟨f.val, by omega⟩ : Fin 65) hf).symm

/-- What the body leaves in the output block, from any prior contents: `block` of the point's input blocks. -/
theorem out_eq (c : Dev nD) (i : grid0.Coords) (arg1 : Memref sig .tc .vmem S1x4096x64 .f32) (harg1 : arg1.IsWhole) (arg2 : Memref sig .tc .vmem S1x4096x1 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S1x4094x65 .f32) (harg13 : arg13.IsWhole) (x0 : Vec Ideal S1x4096x64 .f32) (x1 : Vec Ideal S1x4096x1 .f32) (x2 : Vec Ideal S64x64 .f32) (x3 : Vec Ideal S64 .f32) (x4 : Vec Ideal S64x64 .f32) (x5 : Vec Ideal S64x64 .f32) (x6 : Vec Ideal S64 .f32) (x7 : Vec Ideal S64x64 .f32) (x8 : Vec Ideal S64 .f32) (x9 : Vec Ideal S64x64 .f32) (x10 : Vec Ideal S64x64 .f32) (x11 : Vec Ideal S64 .f32) (y : S1x4094x65.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 y = block x0 x1 x2 x3 x4 x5 x6 x7 x8 x9 x10 x11 y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11)]
  refine View.canon_apply_of_pieces (block x0 x1 x2 x3 x4 x5 x6 x7 x8 x9 x10 x11) _ ?_ y (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 y)
  unfold kernelRun0_A
  dsimp only
  sl_unfold_words
  intro p hp
  rcases List.mem_cons.mp hp with rfl | hp
  · intro x
    simp only [View.readAt_eq_ld, harg2.read_unread, View.ld_unit_zero (S := S1x4096x1) hz3]
    exact gap_piece x0 x1 x2 x3 x4 x5 x6 x7 x8 x9 x10 x11 _ x
  rcases List.mem_cons.mp hp with rfl | hp
  · intro x
    simp only [View.readAt_eq_ld, harg1.read_unread, harg3.read_unread, harg4.read_unread, harg5.read_unread,
      harg6.read_unread, harg7.read_unread, harg8.read_unread, harg9.read_unread, harg10.read_unread,
      harg11.read_unread, harg12.read_unread, View.ld_unit_zero (S := S1x4096x64) hz3,
      View.ld_unit_zero (S := S64x64) hz2, View.ld_unit_zero (S := S64) hz1]
    exact scores_piece x0 x1 x2 x3 x4 x5 x6 x7 x8 x9 x10 x11 _ x
  · exact absurd hp (List.not_mem_nil)

end Cert.ChainSage.Block

end
-- ==== Proof.TileArray.lean ====
/-
  From the blocks to the array. Grid point `t` works on sequence `t`: its feature block is rows `t` of the feature
  array, its distance block rows `t` of the distances (which reach the kernel with a trailing unit axis added), the
  weights and biases are whole at every point, and its output block is rows `t` of the result. So what point `t`
  writes back is block `t` of `resultArr` of the argument arrays, the 64 blocks cover the result, and the result
  array ends at `resultArr` of the arguments.
-/
import proofs.«410198_j14946486190734_1_alg».proof.Proof.Gen.KernelIdeal.Value
import proofs.«410198_j14946486190734_1_alg».proof.Proof.TileBlock
import Idealize.ShloMosaic.Lib.StableHlo.Run

set_option maxRecDepth 16384

noncomputable section

open scoped BigOperators

namespace Cert.ChainSage.Array

open Idealize.ShloMosaic Idealize.ShloMosaic.TcCoe Idealize.SL.Sem Idealize.ShloMosaic.ValueIdx
open Idealize.ShloMosaic.Pipeline (Dat)
open Cert.KernelIdeal Cert.KernelIdeal.Gen
open Cert.ChainSage.Tile Cert.ChainSage.Block

variable (m : (ℓ : Loc nD τ sig) → Buf (Elt Ideal) ℓ) (ρ : Dev nD → PrngReg)

/-- The input blocks of point `t`, each at its literal type. -/
abbrev b0 (c : Dev nD) (t : Fin cfg0.N) : Vec Ideal S1x4096x64 .f32 := iblk m c 0 t
abbrev b1 (c : Dev nD) (t : Fin cfg0.N) : Vec Ideal S1x4096x1 .f32 := iblk m c 1 t
abbrev b2 (c : Dev nD) (t : Fin cfg0.N) : Vec Ideal S64x64 .f32 := iblk m c 2 t
abbrev b3 (c : Dev nD) (t : Fin cfg0.N) : Vec Ideal S64 .f32 := iblk m c 3 t
abbrev b4 (c : Dev nD) (t : Fin cfg0.N) : Vec Ideal S64x64 .f32 := iblk m c 4 t
abbrev b5 (c : Dev nD) (t : Fin cfg0.N) : Vec Ideal S64x64 .f32 := iblk m c 5 t
abbrev b6 (c : Dev nD) (t : Fin cfg0.N) : Vec Ideal S64 .f32 := iblk m c 6 t
abbrev b7 (c : Dev nD) (t : Fin cfg0.N) : Vec Ideal S64x64 .f32 := iblk m c 7 t
abbrev b8 (c : Dev nD) (t : Fin cfg0.N) : Vec Ideal S64 .f32 := iblk m c 8 t
abbrev b9 (c : Dev nD) (t : Fin cfg0.N) : Vec Ideal S64x64 .f32 := iblk m c 9 t
abbrev b10 (c : Dev nD) (t : Fin cfg0.N) : Vec Ideal S64x64 .f32 := iblk m c 10 t
abbrev b11 (c : Dev nD) (t : Fin cfg0.N) : Vec Ideal S64 .f32 := iblk m c 11 t

/-- The printed index maps over the grid: point `t` takes block `t` along the sequence axis of the features, the
    distances and the result, and block 0 of everything else. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 1) = 0
    ∧ win0_12.index t (0 : Fin 3) = t.val
    ∧ win0_12.index t (1 : Fin 3) = 0
    ∧ win0_12.index t (2 : Fin 3) = 0 :=
  (by decide +kernel : ∀ t : Fin grid0.N, _)

/-- A point of the grid as a sequence number. -/
def seqOf (t : Fin cfg0.N) : Fin 64 := ⟨t.val, by have := t.isLt; have hN : cfg0.N = 64 := N_0; omega⟩

/-- The distances as the region finds them: the argument with a trailing unit axis. -/
theorem V_dis (c : Dev nD) :
    (V m c main_v0 : S64x4096x1.Idx → EReal)
      = shapeCast S64x4096x1 (m ((c : Thread nD τ).loc main_arg1)) shapeCasts_S64x4096_S64x4096x1 := by
  dsimp only [Gen.V, Gen.hostOps0]; after_results; rfl

/-! ## Each input block is a part of its argument array -/

theorem blk0_rows (c : Dev nD) (t : Fin cfg0.N) :
    blkRows (N := 4096) (b0 m c t) = seqRows (N := 4096) (m ((c : Thread nD τ).loc main_arg0)) (seqOf t) := by
  funext l k
  show V m c main_arg0 (((cfg0.win 0).blk t).view.emb (ix3 (0 : Fin 1) l k)) = (m ((c : Thread nD τ).loc main_arg0)) (ix3 (seqOf t) l k)
  rw [V_main_arg0]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_0.index t (0 : Fin 3) * 1 + 1 * 0 = t.val; omega
  | ⟨1, _⟩ => show win0_0.index t (1 : Fin 3) * 4096 + 1 * l.val = l.val; omega
  | ⟨2, _⟩ => show win0_0.index t (2 : Fin 3) * 64 + 1 * k.val = k.val; omega

theorem blk1_col (c : Dev nD) (t : Fin cfg0.N) :
    blkCol (N := 4096) (b1 m c t) = seqCol (N := 4096) (m ((c : Thread nD τ).loc main_arg1)) (seqOf t) := by
  funext l
  show V m c main_v0 (((cfg0.win 1).blk t).view.emb (ix3 (0 : Fin 1) l (0 : Fin 1))) = (m ((c : Thread nD τ).loc main_arg1)) (ix2 (seqOf t) l)
  rw [V_dis]
  refine Eq.trans ?_ (shapeCast_ab_ab1_apply (m ((c : Thread nD τ).loc main_arg1)) shapeCasts_S64x4096_S64x4096x1 (seqOf t) l (0 : Fin 1))
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_1.index t (0 : Fin 3) * 1 + 1 * 0 = t.val; omega
  | ⟨1, _⟩ => show win0_1.index t (1 : Fin 3) * 4096 + 1 * l.val = l.val; omega
  | ⟨2, _⟩ => show win0_1.index t (2 : Fin 3) * 1 + 1 * 0 = 0; omega

theorem blk2_rows (c : Dev nD) (t : Fin cfg0.N) : rows (N := 64) (b2 m c t) = rows (N := 64) (m ((c : Thread nD τ).loc main_arg5)) := by
  funext k f
  show V m c main_arg5 (((cfg0.win 2).blk t).view.emb (ix2 k f)) = (m ((c : Thread nD τ).loc main_arg5)) (ix2 k f)
  rw [V_main_arg5]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_2.index t (0 : Fin 2) * 64 + 1 * k.val = k.val; omega
  | ⟨1, _⟩ => show win0_2.index t (1 : Fin 2) * 64 + 1 * f.val = f.val; omega

theorem blk3_feat (c : Dev nD) (t : Fin cfg0.N) : feat (b3 m c t) = feat (m ((c : Thread nD τ).loc main_arg6)) := by
  funext f
  show V m c main_arg6 (((cfg0.win 3).blk t).view.emb (ix1 f)) = (m ((c : Thread nD τ).loc main_arg6)) (ix1 f)
  rw [V_main_arg6]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_3.index t (0 : Fin 1) * 64 + 1 * f.val = f.val; omega

theorem blk4_rows (c : Dev nD) (t : Fin cfg0.N) : rows (N := 64) (b4 m c t) = rows (N := 64) (m ((c : Thread nD τ).loc main_arg7)) := by
  funext k f
  show V m c main_arg7 (((cfg0.win 4).blk t).view.emb (ix2 k f)) = (m ((c : Thread nD τ).loc main_arg7)) (ix2 k f)
  rw [V_main_arg7]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_4.index t (0 : Fin 2) * 64 + 1 * k.val = k.val; omega
  | ⟨1, _⟩ => show win0_4.index t (1 : Fin 2) * 64 + 1 * f.val = f.val; omega

theorem blk5_rows (c : Dev nD) (t : Fin cfg0.N) : rows (N := 64) (b5 m c t) = rows (N := 64) (m ((c : Thread nD τ).loc main_arg8)) := by
  funext k f
  show V m c main_arg8 (((cfg0.win 5).blk t).view.emb (ix2 k f)) = (m ((c : Thread nD τ).loc main_arg8)) (ix2 k f)
  rw [V_main_arg8]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_5.index t (0 : Fin 2) * 64 + 1 * k.val = k.val; omega
  | ⟨1, _⟩ => show win0_5.index t (1 : Fin 2) * 64 + 1 * f.val = f.val; omega

theorem blk6_feat (c : Dev nD) (t : Fin cfg0.N) : feat (b6 m c t) = feat (m ((c : Thread nD τ).loc main_arg9)) := by
  funext f
  show V m c main_arg9 (((cfg0.win 6).blk t).view.emb (ix1 f)) = (m ((c : Thread nD τ).loc main_arg9)) (ix1 f)
  rw [V_main_arg9]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_6.index t (0 : Fin 1) * 64 + 1 * f.val = f.val; omega

theorem blk7_rows (c : Dev nD) (t : Fin cfg0.N) : rows (N := 64) (b7 m c t) = rows (N := 64) (m ((c : Thread nD τ).loc main_arg10)) := by
  funext k f
  show V m c main_arg10 (((cfg0.win 7).blk t).view.emb (ix2 k f)) = (m ((c : Thread nD τ).loc main_arg10)) (ix2 k f)
  rw [V_main_arg10]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_7.index t (0 : Fin 2) * 64 + 1 * k.val = k.val; omega
  | ⟨1, _⟩ => show win0_7.index t (1 : Fin 2) * 64 + 1 * f.val = f.val; omega

theorem blk8_feat (c : Dev nD) (t : Fin cfg0.N) : feat (b8 m c t) = feat (m ((c : Thread nD τ).loc main_arg11)) := by
  funext f
  show V m c main_arg11 (((cfg0.win 8).blk t).view.emb (ix1 f)) = (m ((c : Thread nD τ).loc main_arg11)) (ix1 f)
  rw [V_main_arg11]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_8.index t (0 : Fin 1) * 64 + 1 * f.val = f.val; omega

theorem blk9_rows (c : Dev nD) (t : Fin cfg0.N) : rows (N := 64) (b9 m c t) = rows (N := 64) (m ((c : Thread nD τ).loc main_arg12)) := by
  funext k f
  show V m c main_arg12 (((cfg0.win 9).blk t).view.emb (ix2 k f)) = (m ((c : Thread nD τ).loc main_arg12)) (ix2 k f)
  rw [V_main_arg12]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_9.index t (0 : Fin 2) * 64 + 1 * k.val = k.val; omega
  | ⟨1, _⟩ => show win0_9.index t (1 : Fin 2) * 64 + 1 * f.val = f.val; omega

theorem blk10_rows (c : Dev nD) (t : Fin cfg0.N) : rows (N := 64) (b10 m c t) = rows (N := 64) (m ((c : Thread nD τ).loc main_arg13)) := by
  funext k f
  show V m c main_arg13 (((cfg0.win 10).blk t).view.emb (ix2 k f)) = (m ((c : Thread nD τ).loc main_arg13)) (ix2 k f)
  rw [V_main_arg13]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_10.index t (0 : Fin 2) * 64 + 1 * k.val = k.val; omega
  | ⟨1, _⟩ => show win0_10.index t (1 : Fin 2) * 64 + 1 * f.val = f.val; omega

theorem blk11_feat (c : Dev nD) (t : Fin cfg0.N) : feat (b11 m c t) = feat (m ((c : Thread nD τ).loc main_arg14)) := by
  funext f
  show V m c main_arg14 (((cfg0.win 11).blk t).view.emb (ix1 f)) = (m ((c : Thread nD τ).loc main_arg14)) (ix1 f)
  rw [V_main_arg14]
  refine congrArg _ ?_
  obtain ⟨f0, f1, f2, f3, f4, f5, f6, f7, f8, f9, f10, f11, f12, f13, f14, f15, f16, f17, f18, f19, f20, f21, f22, f23, f24⟩ := idx_facts t
  funext a; apply Fin.ext
  match a with
  | ⟨0, _⟩ => show win0_11.index t (0 : Fin 1) * 64 + 1 * f.val = f.val; omega

/-! ## What a point writes back, and the array -/

/-- WHAT POINT `t` WRITES BACK is block `t` of `resultArr` of the argument arrays. -/
theorem flushed_eq (c : Dev nD) (t : Fin cfg0.N) :
    (dats m 0 c).flushed 12 t
      = ((cfg0.win 12).blk t).view.read (Elt Ideal) (resultArr (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Cert.KernelIdeal.Value.flushed12]
  funext j
  show outsAt0 m c t j = resultArr (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 12).blk t).view.emb j)
  unfold outsAt0
  refine (Block.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (b0 m c t) (b1 m c t) (b2 m c t) (b3 m c t) (b4 m c t) (b5 m c t) (b6 m c t) (b7 m c t) (b8 m c t) (b9 m c t) (b10 m c t) (b11 m c t) j).trans ?_
  obtain ⟨f0, f1, f2, f3, f4, f5, f6, f7, f8, f9, f10, f11, f12, f13, f14, f15, f16, f17, f18, f19, f20, f21, f22, f23, f24⟩ := idx_facts t
  have hj0 : (j 0).val < 1 := (j 0).isLt
  refine Eq.trans ?_ (resultArr_at (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 12).blk t).view.emb j) (seqOf t) (j 1) (j 2)
    (by show win0_12.index t (0 : Fin 3) * 1 + 1 * (j 0).val = t.val; omega)
    (by show win0_12.index t (1 : Fin 3) * 4094 + 1 * (j 1).val = (j 1).val; omega)
    (by show win0_12.index t (2 : Fin 3) * 65 + 1 * (j 2).val = (j 2).val; omega)).symm
  show blockAt (b0 m c t) (b1 m c t) (b2 m c t) (b3 m c t) (b4 m c t) (b5 m c t) (b6 m c t) (b7 m c t) (b8 m c t) (b9 m c t) (b10 m c t) (b11 m c t) (j 1) (j 2) = _
  unfold blockAt
  rw [blk0_rows, blk1_col, blk2_rows, blk3_feat, blk4_rows, blk5_rows, blk6_feat, blk7_rows, blk8_feat, blk9_rows, blk10_rows, blk11_feat]

/-- An index of the result is in point `t`'s block iff each coordinate is in the block's range on its axis. -/
theorem mem_blk (t : Fin cfg0.N) (i : S64x4094x65.Idx) :
    i ∈ ((cfg0.win 12).blk t).view.set ↔ ∀ a : Fin 3, win0_12.index t a * S1x4094x65.size a ≤ (i a).val ∧ (i a).val < win0_12.index t a * S1x4094x65.size a + S1x4094x65.size a := by
  show i ∈ ((View.whole main_v1).slice (win0_12.rect t)).set ↔ _
  rw [View.set_slice_whole, Rect.mem_set_unit]
  exact Iff.rfl

/-- Every index of the result lies in the block of its sequence's point. -/
theorem cover (i : S64x4094x65.Idx) :
    ∃ t : Fin cfg0.N, (cfg0.win 12).flush t = true ∧ i ∈ ((cfg0.win 12).blk t).view.set := by
  have h0 : (i 0).val < 64 := (i 0).isLt
  have h1 : (i 1).val < 4094 := (i 1).isLt
  have h2 : (i 2).val < 65 := (i 2).isLt
  have hN : cfg0.N = 64 := N_0
  let t : Fin cfg0.N := ⟨(i 0).val, by omega⟩
  refine ⟨t, flush0_12 t, ?_⟩
  rw [mem_blk]
  obtain ⟨f0, f1, f2, f3, f4, f5, f6, f7, f8, f9, f10, f11, f12, f13, f14, f15, f16, f17, f18, f19, f20, f21, f22, f23, f24⟩ := idx_facts t
  intro a
  match a with
  | ⟨0, _⟩ => show win0_12.index t (0 : Fin 3) * 1 ≤ (i 0).val ∧ (i 0).val < win0_12.index t (0 : Fin 3) * 1 + 1; have ht : t.val = (i 0).val := rfl; omega
  | ⟨1, _⟩ => show win0_12.index t (1 : Fin 3) * 4094 ≤ (i 1).val ∧ (i 1).val < win0_12.index t (1 : Fin 3) * 4094 + 4094; omega
  | ⟨2, _⟩ => show win0_12.index t (2 : Fin 3) * 65 ≤ (i 2).val ∧ (i 2).val < win0_12.index t (2 : Fin 3) * 65 + 65; omega

/-- THE ARRAY after the run. -/
theorem final (c : Dev nD) :
    (dats m 0 c).arrAt 12 cfg0.N = resultArr (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 12 (resultArr (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (fun t _ => flushed_eq m c t) (cover)

/-- The kernel's run, read: the result array at `resultArr` of the arguments, the arguments unchanged. -/
theorem run : θ_run defs (onTc (τ := τ) (main (F := Ideal))) ⟨m, fun _ => 0, ρ⟩ fun r => ∀ c : Dev nD,
      r.2.mem ((c : Thread nD τ).loc main_v1) = resultArr (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Cert.KernelIdeal.Value.run_blocks m ρ)

end Cert.ChainSage.Array

end
-- ==== Proof.WholeLayers.lean ====
/-
  The reference computes the same layers over all 64 sequences at a time, as rank-3 arrays `[64, N, 64]`. Read at
  an entry `(b, l, f)` each of its stages is the stage of `ChainSage` on sequence `b`'s rows: the contraction over
  the 64 input features is the row-by-column sum, the bias is broadcast along the first two axes, the shift is a
  block of zeros joined in front along the position axis, and the edge scores multiply positions `l` and `l + 1`.
  The local gap is read on `[64, N]` arrays, and the result joins the 64 score columns and the gap column along the
  last axis.
-/
import proofs.«410198_j14946486190734_1_alg».proof.Proof.Gen.ReferenceIdeal.Read
import proofs.«410198_j14946486190734_1_alg».proof.Proof.LibJoin2
import proofs.«410198_j14946486190734_1_alg».proof.Proof.ChainSage
import proofs.«410198_j14946486190734_1_alg».proof.Proof.TileLayer

noncomputable section

open scoped BigOperators

namespace Cert.ChainSage.Whole

open Idealize.ShloMosaic Idealize.ShloMosaic.ValueIdx
open Cert.ReferenceIdeal Cert.ReferenceIdeal.Gen Cert.ReferenceIdeal.Read
open Cert.ChainSage.Tile (rows feat seqRows seqCol resultArr resultArr_at)

/-- Two index functions of rank 3, 2 or 1 agree: coordinate by coordinate, up to the order of a sum of two numbers. -/
local macro "ix_eq3" : tactic => `(tactic| (funext a; refine Fin.ext ?_; match a with
  | ⟨0, _⟩ => rfl
  | ⟨1, _⟩ => first | rfl | exact Nat.add_comm _ _
  | ⟨2, _⟩ => rfl))
local macro "ix_eq2" : tactic => `(tactic| (funext a; refine Fin.ext ?_; match a with
  | ⟨0, _⟩ => rfl
  | ⟨1, _⟩ => first | rfl | exact Nat.add_comm _ _))
local macro "ix_eq1" : tactic => `(tactic| (funext a; refine Fin.ext ?_; match a with
  | ⟨0, _⟩ => rfl))

variable (x0 : (⟨S64x4096x64, .f32⟩ : BufTy).Contents (Elt Ideal)) (x1 : (⟨S64x4096, .f32⟩ : BufTy).Contents (Elt Ideal))
  (x5 : (⟨S64x64, .f32⟩ : BufTy).Contents (Elt Ideal)) (x6 : (⟨S64, .f32⟩ : BufTy).Contents (Elt Ideal))
  (x7 x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 x13 : (⟨S64x64, .f32⟩ : BufTy).Contents (Elt Ideal)) (x14 : (⟨S64, .f32⟩ : BufTy).Contents (Elt Ideal))

/-! ## The first layer -/

/-- The pooled message of the first layer. -/
theorem pooled1 (b : Fin 64) (l : Fin 4096) (f : Fin 64) :
    val_main_v11 (F := Ideal) x0 x5 x6 (ix3 b l f) = pool (seqRows x0 b) (rows x5) (feat x6) l f := by
  have e1 : ∀ k : Fin 64, lidx_main_v7 (ix3 b l f) k = ix3 b l k := fun k => by ix_eq3
  have e2 : ∀ k : Fin 64, ridx_main_v7 (ix3 b l f) k = ix2 k f := fun k => by ix_eq2
  have e3 : idx_main_v8 (idx_main_v9 (ix3 b l f)) = ix1 f := by ix_eq1
  simp only [val_main_v11_apply, val_main_v10_apply, val_main_v7_apply, val_main_v9_apply, val_main_v8_apply,
    val_main_call0_v0_apply, val_main_call0_cst_apply, e1, e2, e3, Ideal.ofBits_def, Ideal.ofBits_zero_f32,
    Ideal.addf_def, Ideal.maximumf_def]
  rfl

/-- The message each position receives: zeros joined in front of positions `0 … 4094`. -/
theorem received1 (b : Fin 64) (l : Fin 4096) (f : Fin 64) :
    val_main_v15 (F := Ideal) x0 x5 x6 (ix3 b l f) = fromPred (pool (seqRows x0 b) (rows x5) (feat x6)) l f := by
  unfold val_main_v15 fromPred
  have hl := l.isLt
  by_cases h0 : l.val = 0
  · rw [if_pos h0]
    refine (Join2.mid_first _ _ concatenates_S64x1x64_S64x4095x64_S64x4096x64_d1 b l f (⟨0, Nat.one_pos⟩ : Fin 1) h0.symm).trans ?_
    simp only [val_main_v13_apply, val_main_cst_1_apply, Ideal.ofBits_def, Ideal.ofBits_zero_f32]
  · rw [if_neg h0]
    refine (Join2.mid_second _ _ concatenates_S64x1x64_S64x4095x64_S64x4096x64_d1 b l f (⟨l.val - 1, by omega⟩ : Fin 4095)
      (by show l.val - 1 + 1 = l.val; omega)).trans ?_
    have e : idx_main_v14 (ix3 b (⟨l.val - 1, by omega⟩ : Fin 4095) f) = ix3 b (⟨l.val - 1, by omega⟩ : Fin 4096) f := by ix_eq3
    rw [val_main_v14_apply, e, pooled1]

/-- The first layer's features. -/
theorem layer1 (b : Fin 64) (l : Fin 4096) (f : Fin 64) :
    val_main_v21 (F := Ideal) x0 x5 x6 x7 x8 x9 (ix3 b l f)
      = layer (seqRows x0 b) (rows x5) (feat x6) (rows x7) (rows x8) (feat x9) l f := by
  have e1 : ∀ k : Fin 64, lidx_main_v16 (ix3 b l f) k = ix3 b l k := fun k => by ix_eq3
  have e2 : ∀ k : Fin 64, ridx_main_v16 (ix3 b l f) k = ix2 k f := fun k => by ix_eq2
  have e3 : ∀ k : Fin 64, lidx_main_v17 (ix3 b l f) k = ix3 b l k := fun k => by ix_eq3
  have e4 : ∀ k : Fin 64, ridx_main_v17 (ix3 b l f) k = ix2 k f := fun k => by ix_eq2
  have e5 : idx_main_v19 (idx_main_v20 (ix3 b l f)) = ix1 f := by ix_eq1
  simp only [val_main_v21_apply, val_main_v18_apply, val_main_v16_apply, val_main_v17_apply, val_main_v20_apply,
    val_main_v19_apply, e1, e2, e3, e4, e5, received1, Ideal.addf_def]
  rfl

/-- The first layer's edge scores: positions `l` and `l + 1`. -/
theorem edges1 (b : Fin 64) (l : Fin 4095) (f : Fin 64) :
    val_main_v24 (F := Ideal) x0 x5 x6 x7 x8 x9 (ix3 b l f)
      = edges (layer (seqRows x0 b) (rows x5) (feat x6) (rows x7) (rows x8) (feat x9)) 4095 rfl l f := by
  have hl := l.isLt
  have e1 : idx_main_v22 (ix3 b l f) = ix3 b (⟨l.val, by omega⟩ : Fin 4096) f := by ix_eq3
  have e2 : idx_main_v23 (ix3 b l f) = ix3 b (⟨l.val + 1, by omega⟩ : Fin 4096) f := by ix_eq3
  simp only [val_main_v24_apply, val_main_v22_apply, val_main_v23_apply, e1, e2, layer1, Ideal.mulf_def]
  rfl

/-! ## The second layer, on the first layer's edge scores -/

/-- The first layer's edge scores of sequence `b`. -/
abbrev s1 (b : Fin 64) : Rows 4095 :=
  edges (layer (seqRows x0 b) (rows x5) (feat x6) (rows x7) (rows x8) (feat x9)) 4095 rfl

theorem pooled2 (b : Fin 64) (l : Fin 4095) (f : Fin 64) :
    val_main_v29 (F := Ideal) x0 x5 x6 x7 x8 x9 x10 x11 (ix3 b l f) = pool (s1 x0 x5 x6 x7 x8 x9 b) (rows x10) (feat x11) l f := by
  have e1 : ∀ k : Fin 64, lidx_main_v25 (ix3 b l f) k = ix3 b l k := fun k => by ix_eq3
  have e2 : ∀ k : Fin 64, ridx_main_v25 (ix3 b l f) k = ix2 k f := fun k => by ix_eq2
  have e3 : idx_main_v26 (idx_main_v27 (ix3 b l f)) = ix1 f := by ix_eq1
  simp only [val_main_v29_apply, val_main_v28_apply, val_main_v25_apply, val_main_v27_apply, val_main_v26_apply,
    val_main_call1_v0_apply, val_main_call1_cst_apply, e1, e2, e3, edges1, Ideal.ofBits_def, Ideal.ofBits_zero_f32,
    Ideal.addf_def, Ideal.maximumf_def]
  rfl

theorem received2 (b : Fin 64) (l : Fin 4095) (f : Fin 64) :
    val_main_v33 (F := Ideal) x0 x5 x6 x7 x8 x9 x10 x11 (ix3 b l f) = fromPred (pool (s1 x0 x5 x6 x7 x8 x9 b) (rows x10) (feat x11)) l f := by
  unfold val_main_v33 fromPred
  have hl := l.isLt
  by_cases h0 : l.val = 0
  · rw [if_pos h0]
    refine (Join2.mid_first _ _ concatenates_S64x1x64_S64x4094x64_S64x4095x64_d1 b l f (⟨0, Nat.one_pos⟩ : Fin 1) h0.symm).trans ?_
    simp only [val_main_v31_apply, val_main_cst_2_apply, Ideal.ofBits_def, Ideal.ofBits_zero_f32]
  · rw [if_neg h0]
    refine (Join2.mid_second _ _ concatenates_S64x1x64_S64x4094x64_S64x4095x64_d1 b l f (⟨l.val - 1, by omega⟩ : Fin 4094)
      (by show l.val - 1 + 1 = l.val; omega)).trans ?_
    have e : idx_main_v32 (ix3 b (⟨l.val - 1, by omega⟩ : Fin 4094) f) = ix3 b (⟨l.val - 1, by omega⟩ : Fin 4095) f := by ix_eq3
    rw [val_main_v32_apply, e, pooled2]

theorem layer2 (b : Fin 64) (l : Fin 4095) (f : Fin 64) :
    val_main_v39 (F := Ideal) x0 x5 x6 x7 x8 x9 x10 x11 x12 x13 x14 (ix3 b l f)
      = layer (s1 x0 x5 x6 x7 x8 x9 b) (rows x10) (feat x11) (rows x12) (rows x13) (feat x14) l f := by
  have e1 : ∀ k : Fin 64, lidx_main_v34 (ix3 b l f) k = ix3 b l k := fun k => by ix_eq3
  have e2 : ∀ k : Fin 64, ridx_main_v34 (ix3 b l f) k = ix2 k f := fun k => by ix_eq2
  have e3 : ∀ k : Fin 64, lidx_main_v35 (ix3 b l f) k = ix3 b l k := fun k => by ix_eq3
  have e4 : ∀ k : Fin 64, ridx_main_v35 (ix3 b l f) k = ix2 k f := fun k => by ix_eq2
  have e5 : idx_main_v37 (idx_main_v38 (ix3 b l f)) = ix1 f := by ix_eq1
  simp only [val_main_v39_apply, val_main_v36_apply, val_main_v34_apply, val_main_v35_apply, val_main_v38_apply,
    val_main_v37_apply, e1, e2, e3, e4, e5, received2, edges1, Ideal.addf_def]
  rfl

/-- The second layer's edge scores: the 64 score columns of the result. -/
theorem edges2 (b : Fin 64) (l : Fin 4094) (f : Fin 64) :
    val_main_v42 (F := Ideal) x0 x5 x6 x7 x8 x9 x10 x11 x12 x13 x14 (ix3 b l f)
      = scores (seqRows x0 b) (rows x5) (feat x6) (rows x7) (rows x8) (feat x9) (rows x10) (feat x11) (rows x12) (rows x13) (feat x14) l f := by
  have hl := l.isLt
  have e1 : idx_main_v40 (ix3 b l f) = ix3 b (⟨l.val, by omega⟩ : Fin 4095) f := by ix_eq3
  have e2 : idx_main_v41 (ix3 b l f) = ix3 b (⟨l.val + 1, by omega⟩ : Fin 4095) f := by ix_eq3
  simp only [val_main_v42_apply, val_main_v40_apply, val_main_v41_apply, e1, e2, layer2, Ideal.mulf_def]
  rfl

/-! ## The local gap, and the result -/

theorem normed (b : Fin 64) (l : Fin 4096) :
    val_main_v46 (F := Ideal) x1 (ix2 b l) = norm μ σ (seqCol x1 b) l := by
  simp only [val_main_v46_apply, val_main_v44_apply, val_main_v43_apply, val_main_cst_3_apply, val_main_v45_apply,
    val_main_cst_4_apply, Ideal.ofBits_def, Ideal.subf_def, Ideal.hostDivf_def]
  rfl

theorem gapped (b : Fin 64) (l : Fin 4094) :
    val_main_v53 (F := Ideal) x1 (ix2 b l) = gap μ σ (seqCol x1 b) 4094 rfl l := by
  have hl := l.isLt
  have e1 : idx_main_v47 (ix2 b l) = ix2 b (⟨l.val + 2, by omega⟩ : Fin 4096) := by ix_eq2
  have e2 : idx_main_v48 (ix2 b l) = ix2 b (⟨l.val, by omega⟩ : Fin 4096) := by ix_eq2
  simp only [val_main_v53_apply, val_main_v51_apply, val_main_v49_apply, val_main_v47_apply, val_main_v48_apply, e1, e2,
    normed, val_main_v50_apply, val_main_cst_5_apply, val_main_v52_apply, val_main_cst_6_apply, Ideal.ofBits_def,
    Ideal.subf_def, Ideal.hostDivf_def]
  rfl

/-- The reference's result at an entry: a row of 64 scores and the gap. -/
theorem result (b : Fin 64) (l : Fin 4094) (j : Fin 65) :
    val_main_v55 (F := Ideal) x0 x1 x5 x6 x7 x8 x9 x10 x11 x12 x13 x14 (ix3 b l j)
      = outRow (scores (seqRows x0 b) (rows x5) (feat x6) (rows x7) (rows x8) (feat x9) (rows x10) (feat x11) (rows x12) (rows x13) (feat x14) l)
          (gap μ σ (seqCol x1 b) 4094 rfl l) j := by
  unfold val_main_v55 outRow
  have hj := j.isLt
  by_cases h : j.val < 64
  · rw [dif_pos h]
    refine (Join2.last_first _ _ concatenates_S64x4094x64_S64x4094x1_S64x4094x65_d2 b l j (⟨j.val, h⟩ : Fin 64) rfl).trans ?_
    exact edges2 x0 x5 x6 x7 x8 x9 x10 x11 x12 x13 x14 b l _
  · rw [dif_neg h]
    refine (Join2.last_second _ _ concatenates_S64x4094x64_S64x4094x1_S64x4094x65_d2 b l j (⟨0, Nat.one_pos⟩ : Fin 1)
      (by show 0 + 64 = j.val; omega)).trans ?_
    have e : idx_main_v54 (ix3 b l (⟨0, Nat.one_pos⟩ : Fin 1)) = ix2 b l := by ix_eq2
    rw [val_main_v54_apply, e, gapped]

/-- The reference's result array is `resultArr` of its arguments. -/
theorem result_arr :
    val_main_v55 (F := Ideal) x0 x1 x5 x6 x7 x8 x9 x10 x11 x12 x13 x14 = resultArr x0 x1 x5 x6 x7 x8 x9 x10 x11 x12 x13 x14 := by
  funext i
  obtain ⟨b, l, j, rfl⟩ : ∃ (b : Fin 64) (l : Fin 4094) (j : Fin 65), i = ix3 b l j := ⟨i 0, i 1, i 2, eq_ix3 i⟩
  rw [result]
  exact (resultArr_at x0 x1 x5 x6 x7 x8 x9 x10 x11 x12 x13 x14 (ix3 b l j) b l j rfl rfl rfl).symm

end Cert.ChainSage.Whole

end
-- ==== Proof.lean ====
/-
  The two programs compute one function of their arguments.

  The kernel runs one grid point per sequence. At a point it holds the sequence's 4096 rows of 64 features, applies
  two chain-graph layers — each node's feature is `x W_s + message W_n + b_s`, the message being its predecessor's
  `max (x W_p + b_p) 0`, and nothing at the first node — with every edge `(l, l + 1)` scored by the entrywise product
  of its endpoints after each layer, and writes the second layer's 4094 edge rows into columns 0 … 63 of its output
  block, and into column 64 the local gap `((z (l + 2) - z l) - μ) / σ` of the normalised distances
  `z = (d - μ) / σ`. The reference computes the same over all 64 sequences at once and joins the two parts along the
  last axis. Over the extended reals the narrowing of the products' operands is the identity, a product into a zero
  accumulator and the host's contraction are the same sum over the 64 input features, and both sides divide by the
  same two constants, so entry `(b, l, j)` of either result is `ChainSage`'s `outRow (scores …) (gap …)` of
  sequence `b` (`Tile.resultArr`): the kernel's by its blocks (`Array.run`), the reference's operation by
  operation (`Whole.result_arr`). No law of the extended reals beyond unfolding is needed, and the precondition is
  not used. The idealization rewrote nothing, so `preserves` is `True`; the three frames are the generated ones.
-/
import proofs.«410198_j14946486190734_1_alg».proof.Defs
import proofs.«410198_j14946486190734_1_alg».proof.Proof.Gen.Kernel
import proofs.«410198_j14946486190734_1_alg».proof.Proof.Gen.Kernel.Skeleton
import proofs.«410198_j14946486190734_1_alg».proof.Proof.Gen.Kernel.Launch
import proofs.«410198_j14946486190734_1_alg».proof.Proof.Gen.Kernel.Points
import proofs.«410198_j14946486190734_1_alg».proof.Proof.Gen.Kernel.Frame
import proofs.«410198_j14946486190734_1_alg».proof.Proof.Gen.KernelIdeal
import proofs.«410198_j14946486190734_1_alg».proof.Proof.Gen.KernelIdeal.Skeleton
import proofs.«410198_j14946486190734_1_alg».proof.Proof.Gen.KernelIdeal.Launch
import proofs.«410198_j14946486190734_1_alg».proof.Proof.Gen.KernelIdeal.Points
import proofs.«410198_j14946486190734_1_alg».proof.Proof.Gen.KernelIdeal.Frame
import proofs.«410198_j14946486190734_1_alg».proof.Proof.Gen.ReferenceIdeal
import proofs.«410198_j14946486190734_1_alg».proof.Proof.Gen.Pre_finite_inputs
import proofs.«410198_j14946486190734_1_alg».proof.Proof.Gen.KernelIdeal.Value
import proofs.«410198_j14946486190734_1_alg».proof.Proof.Gen.ReferenceIdeal.Run
import proofs.«410198_j14946486190734_1_alg».proof.Proof.Gen.ReferenceIdeal.Read
import proofs.«410198_j14946486190734_1_alg».proof.Proof.TileArray
import proofs.«410198_j14946486190734_1_alg».proof.Proof.WholeLayers
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the result at `Tile.resultArr` of the arguments. -/
theorem algebraic : Cert.algebraic_KernelIdeal_ReferenceIdeal := by
  intro m ρ m' ρ' _ hagree
  refine ⟨_, Cert.ChainSage.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v55_eq, Cert.ChainSage.Whole.result_arr,
    a0, a1, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
